-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S2048 : Shape := ⟨1, ![2048]⟩
abbrev S1000x128 : Shape := ⟨2, ![1000, 128]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S1000x128 : S_.BroadcastsInDim S1000x128 (![] : Fin 0 → Fin S1000x128.rank)
  reducesTo_S1000x128_S_d0_1 : S1000x128.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S2048x128 .f32) (main_arg1 : IVec S2048 32) (main_arg2 : FVec F S1000x128 .f32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S1000x128 .f32 := Host.absf main_arg2
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  let main_c_2 : IVec S_ 32 := constantI S_ 32 0#32
  let main_v9 : IVec S2048 32 := broadcastInDim S2048 ![] bcast_S_S2048 main_c_2
  let main_v10 : IVec S2048 1 := cmpi .sge main_arg1 main_v9
  let main_c_3 : IVec S_ 1 := constantI S_ 1 1#1
  let main_v11 : IVec S_ 1 := (fun x v => Host.reduce IntOp.andi x v reducesTo_S2048_S_d0 h_S_) main_v10 main_c_3
  let main_v12 : IVec S_ 1 := andi main_v8 main_v11
  let main_c_4 : IVec S_ 32 := constantI S_ 32 1000#32
  let main_v13 : IVec S2048 32 := broadcastInDim S2048 ![] bcast_S_S2048 main_c_4
  let main_v14 : IVec S2048 1 := cmpi .slt main_arg1 main_v13
  let main_c_5 : IVec S_ 1 := constantI S_ 1 1#1
  let main_v15 : IVec S_ 1 := (fun x v => Host.reduce IntOp.andi x v reducesTo_S2048_S_d0 h_S_) main_v14 main_c_5
  fn_part1 (F := F) main_v12 main_v15
-- ==== Kernel.lean ====
abbrev S2048x128 : Shape := ⟨2, ![2048, 128]⟩
abbrev S2048 : Shape := ⟨1, ![2048]⟩
abbrev S1000x128 : Shape := ⟨2, ![1000, 128]⟩
abbrev S2048x1 : Shape := ⟨2, ![2048, 1]⟩
abbrev S_ : Shape := ⟨0, ![]⟩
abbrev S1000 : Shape := ⟨1, ![1000]⟩
abbrev S1x1000 : Shape := ⟨2, ![1, 1000]⟩
abbrev S2048x1000 : Shape := ⟨2, ![2048, 1000]⟩
abbrev S1x512 : Shape := ⟨2, ![1, 512]⟩
abbrev S512x128 : Shape := ⟨2, ![512, 128]⟩
abbrev S512x1 : Shape := ⟨2, ![512, 1]⟩
abbrev S512x1000 : Shape := ⟨2, ![512, 1000]⟩
abbrev S1x128 : Shape := ⟨2, ![1, 128]⟩
abbrev S512 : Shape := ⟨1, ![512]⟩
abbrev S1 : Shape := ⟨1, ![1]⟩
abbrev S1x1 : Shape := ⟨2, ![1, 1]⟩

abbrev nBuf : Space → Nat
  | .hbm => 16
  | .vmem => 12
  | .smem => 0
  | _ => 0

abbrev bufTy : (tb : Table) → Fin (tcTables nBuf tb) → BufTy
  | .hbm, ⟨0, _⟩ => ⟨S2048x128, .f32⟩
  | .hbm, ⟨1, _⟩ => ⟨S2048, .i32⟩
  | .hbm, ⟨2, _⟩ => ⟨S1000x128, .f32⟩
  | .hbm, ⟨3, _⟩ => ⟨S2048x1, .i32⟩
  | .hbm, ⟨4, _⟩ => ⟨S1000x128, .f32⟩
  | .hbm, ⟨5, _⟩ => ⟨S_, .f32⟩
  | .hbm, ⟨6, _⟩ => ⟨S1000, .f32⟩
  | .hbm, ⟨7, _⟩ => ⟨S1x1000, .f32⟩
  | .hbm, ⟨8, _⟩ => ⟨S1000x128, .bf16⟩
  | .hbm, ⟨9, _⟩ => ⟨S2048x1000, .f32⟩
  | .hbm, ⟨10, _⟩ => ⟨S2048x1000, .f32⟩
  | .hbm, ⟨11, _⟩ => ⟨S1x512, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S512x128, .f32⟩
  | .local _ .vmem, ⟨1, _⟩ => ⟨S512x128, .f32⟩
  | .local _ .vmem, ⟨2, _⟩ => ⟨S1000x128, .bf16⟩
  | .local _ .vmem, ⟨3, _⟩ => ⟨S1x1000, .f32⟩
  | .local _ .vmem, ⟨4, _⟩ => ⟨S512x1, .i32⟩
  | .local _ .vmem, ⟨5, _⟩ => ⟨S512x1, .i32⟩
  | .local _ .vmem, ⟨6, _⟩ => ⟨S512x1000, .f32⟩
  | .local _ .vmem, ⟨7, _⟩ => ⟨S512x1000, .f32⟩
  | .local _ .vmem, ⟨8, _⟩ => ⟨S512x1000, .f32⟩
  | .local _ .vmem, ⟨9, _⟩ => ⟨S512x1000, .f32⟩
  | .local _ .vmem, ⟨10, _⟩ => ⟨S1x128, .f32⟩
  | .local _ .vmem, ⟨11, _⟩ => ⟨S1x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S2048_S2048x1 : S2048.ShapeCasts S2048x1
  reducesTo_S1000x128_S1000_d1 : S1000x128.ReducesTo [1] S1000
  h_S_ : 0 < S_.numel
  shapeCasts_S1000_S1x1000 : S1000.ShapeCasts S1x1000
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  reduces_S512x128_S512 : S512x128.Reduces [1] S512
  shapeCasts_S512_S512x1 : S512.ShapeCasts S512x1
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S512x1_S512x1000 : S512x1.Broadcasts S512x1000
  broadcasts_S1x1000_S512x1000 : S1x1000.Broadcasts S512x1000
  iota_S512x1000_d1_w32 : S512x1000.Iotas .tc 32 [1]
  inb_S512x1_S512x1_0_0 : ∀ a, (![0, 0] : Fin 2 → Nat) a + S512x1.size a ≤ S512x1.size a
  h_S512x1 : 0 < S512x1.numel
  shapeCasts_S512x1_S512x1 : S512x1.ShapeCasts S512x1
  natLt_1_32 : 1 < 32
  reduces_S512x1000_S512 : S512x1000.Reduces [1] S512
  reduces_S512x1_S1 : S512x1.Reduces [0] S1
  shapeCasts_S1_S1x1 : S1.ShapeCasts S1x1
  iota_S1x128_d1_w32 : S1x128.Iotas .tc 32 [1]
  shapeCasts_S1x1_S1x1 : S1x1.ShapeCasts S1x1
  broadcasts_S1x1_S1x128 : S1x1.Broadcasts S1x128
  inb_S1x128_S1x128_0_0 : ∀ a, (![0, 0] : Fin 2 → Nat) a + S1x128.size a ≤ S1x128.size a
  h_S1x128 : 0 < S1x128.numel
  inb_S512x1000_S512x1000_0_0 : ∀ a, (![0, 0] : Fin 2 → Nat) a + S512x1000.size a ≤ S512x1000.size a
  h_S512x1000 : 0 < S512x1000.numel
  reducesTo_S1x512_S_d0_1 : S1x512.ReducesTo [0, 1] S_
  dot_S512x128_S1000x128_S512x1000_1_1_0_0_n_n_wf : DotDims.WF S512x128 S1000x128 S512x1000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S2048x128.size a
  hwx0_0 : ∀ i : grid0.Coords, EltTy.bits .f32 = 32 ∨ (Rect.block (s := S2048x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S1000x128.size a
  hwx0_1 : ∀ i : grid0.Coords, EltTy.bits .bf16 = 32 ∨ (Rect.block (s := S1000x128) S1000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1000.size a ≤ S1x1000.size a
  hwx0_2 : ∀ i : grid0.Coords, EltTy.bits .f32 = 32 ∨ (Rect.block (s := S1x1000) S1x1000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S2048x1.size a
  hwx0_3 : ∀ i : grid0.Coords, EltTy.bits .i32 = 32 ∨ (Rect.block (s := S2048x1) S512x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1000.size a ≤ S2048x1000.size a
  hwx0_4 : ∀ i : grid0.Coords, EltTy.bits .f32 = 32 ∨ (Rect.block (s := S2048x1000) S512x1000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1000.size a ≤ S2048x1000.size a
  hwx0_5 : ∀ i : grid0.Coords, EltTy.bits .f32 = 32 ∨ (Rect.block (s := S2048x1000) S512x1000.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x512.size a
  hwx0_6 : ∀ i : grid0.Coords, EltTy.bits .f32 = 32 ∨ (Rect.block (s := S1x512) S1x128.size (cc0_transform_6 i) (hinb0_6 i)).WholeWords (EltTy.packing .f32)

variable [Facts₀]

def dot_S512x128_S1000x128_S512x1000_1_1_0_0_n_n : DotDims S512x128 S1000x128 S512x1000 where
  lhsContracting := [1]
  rhsContracting := [1]
  lhsNonContracting := [0]
  rhsNonContracting := [0]
  lhsBatch := []
  rhsBatch := []
  wf := dot_S512x128_S1000x128_S512x1000_1_1_0_0_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S512x1000.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S512x1000.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_2) S1x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2048x128 : Shape := ⟨2, ![2048, 128]⟩
abbrev S2048 : Shape := ⟨1, ![2048]⟩
abbrev S1000x128 : Shape := ⟨2, ![1000, 128]⟩
abbrev S2048x1x128 : Shape := ⟨3, ![2048, 1, 128]⟩
abbrev S1x1000x128 : Shape := ⟨3, ![1, 1000, 128]⟩
abbrev S2048x1000x128 : Shape := ⟨3, ![2048, 1000, 128]⟩
abbrev S_ : Shape := ⟨0, ![]⟩
abbrev S2048x1000 : Shape := ⟨2, ![2048, 1000]⟩
abbrev S2048x1 : Shape := ⟨2, ![2048, 1]⟩
abbrev S1x1000 : Shape := ⟨2, ![1, 1000]⟩

abbrev nBuf : Space → Nat
  | .hbm => 47
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048, .i32⟩
  | .hbm, ⟨2, _⟩ => ⟨S1000x128, .f32⟩
  | .hbm, ⟨3, _⟩ => ⟨S2048x1x128, .f32⟩
  | .hbm, ⟨4, _⟩ => ⟨S1x1000x128, .f32⟩
  | .hbm, ⟨5, _⟩ => ⟨S2048x1000x128, .f32⟩
  | .hbm, ⟨6, _⟩ => ⟨S2048x1000x128, .f32⟩
  | .hbm, ⟨7, _⟩ => ⟨S2048x1000x128, .f32⟩
  | .hbm, ⟨8, _⟩ => ⟨S2048x1000x128, .f32⟩
  | .hbm, ⟨9, _⟩ => ⟨S_, .f32⟩
  | .hbm, ⟨10, _⟩ => ⟨S2048x1000, .f32⟩
  | .hbm, ⟨11, _⟩ => ⟨S2048x1, .i32⟩
  | .hbm, ⟨12, _⟩ => ⟨S1x1000, .i32⟩
  | .hbm, ⟨13, _⟩ => ⟨S2048x1000, .i32⟩
  | .hbm, ⟨14, _⟩ => ⟨S2048x1000, .i32⟩
  | .hbm, ⟨15, _⟩ => ⟨S2048x1000, .i1⟩
  | .hbm, ⟨16, _⟩ => ⟨S2048x1000, .f32⟩
  | .hbm, ⟨17, _⟩ => ⟨S_, .f32⟩
  | .hbm, ⟨18, _⟩ => ⟨S2048x1000, .f32⟩
  | .hbm, ⟨19, _⟩ => ⟨S2048x1000, .f32⟩
  | .hbm, ⟨20, _⟩ => ⟨S_, .f32⟩
  | .hbm, ⟨21, _⟩ => ⟨S2048x1000, .f32⟩
  | .hbm, ⟨22, _⟩ => ⟨S2048x1000, .f32⟩
  | .hbm, ⟨23, _⟩ => ⟨S2048x1000, .f32⟩
  | .hbm, ⟨24, _⟩ => ⟨S_, .f32⟩
  | .hbm, ⟨25, _⟩ => ⟨S2048x1000, .f32⟩
  | .hbm, ⟨26, _⟩ => ⟨S2048x1000, .f32⟩
  | .hbm, ⟨27, _⟩ => ⟨S_, .f32⟩
  | .hbm, ⟨28, _⟩ => ⟨S2048x1000, .f32⟩
  | .hbm, ⟨29, _⟩ => ⟨S2048x1000, .f32⟩
  | .hbm, ⟨30, _⟩ => ⟨S_, .i32⟩
  | .hbm, ⟨31, _⟩ => ⟨S2048, .i32⟩
  | .hbm, ⟨32, _⟩ => ⟨S2048, .i1⟩
  | .hbm, ⟨33, _⟩ => ⟨S_, .i32⟩
  | .hbm, ⟨34, _⟩ => ⟨S2048, .i32⟩
  | .hbm, ⟨35, _⟩ => ⟨S2048, .i32⟩
  | .hbm, ⟨36, _⟩ => ⟨S2048, .i32⟩
  | .hbm, ⟨37, _⟩ => ⟨S2048x1, .i32⟩
  | .hbm, ⟨38, _⟩ => ⟨S2048x128, .f32⟩
  | .hbm, ⟨39, _⟩ => ⟨S2048x128, .f32⟩
  | .hbm, ⟨40, _⟩ => ⟨S2048x128, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩

abbrev nD : Nat := 1
abbrev τ : Topo := Topo.v7x

variable {F : FTy → Type} [FloatOps F]

class Facts₀ : Prop where
  bcast_S2048x128_S2048x1x128_0_2 : S2048x128.BroadcastsInDim S2048x1x128 (![0, 2] : Fin 2 → Fin S2048x1x128.rank)
  bcast_S1000x128_S1x1000x128_1_2 : S1000x128.BroadcastsInDim S1x1000x128 (![1, 2] : Fin 2 → Fin S1x1000x128.rank)
  bcast_S2048x1x128_S2048x1000x128_0_1_2 : S2048x1x128.BroadcastsInDim S2048x1000x128 (![0, 1, 2] : Fin 3 → Fin S2048x1000x128.rank)
  bcast_S1x1000x128_S2048x1000x128_0_1_2 : S1x1000x128.BroadcastsInDim S2048x1000x128 (![0, 1, 2] : Fin 3 → Fin S2048x1000x128.rank)
  reducesTo_S2048x1000x128_S2048x1000_d2 : S2048x1000x128.ReducesTo [2] S2048x1000
  h_S_ : 0 < S_.numel
  bcast_S2048_S2048x1_0 : S2048.BroadcastsInDim S2048x1 (![0] : Fin 1 → Fin S2048x1.rank)
  bcast_S2048x1_S2048x1000_0_1 : S2048x1.BroadcastsInDim S2048x1000 (![0, 1] : Fin 2 → Fin S2048x1000.rank)
  bcast_S1x1000_S2048x1000_0_1 : S1x1000.BroadcastsInDim S2048x1000 (![0, 1] : Fin 2 → Fin S2048x1000.rank)
  bcast_S_S2048x1000 : S_.BroadcastsInDim S2048x1000 (![] : Fin 0 → Fin S2048x1000.rank)
  bcast_S_S2048 : S_.BroadcastsInDim S2048 (![] : Fin 0 → Fin S2048.rank)
  reducesTo_S2048x128_S_d0_1 : S2048x128.ReducesTo [0, 1] S_
  gather_S1000x128_S2048x1_S2048x128_1_0_n_n_0_1_1128_wf : GatherDims.WF S1000x128 S2048x1 S2048x128 [1] [0] [] [0] [] 1 ![1, 128]

variable [Facts₀]

def gather_S1000x128_S2048x1_S2048x128_1_0_n_n_0_1_1128 : GatherDims S1000x128 S2048x1 S2048x128 where
  offsetDims := [1]
  collapsedSliceDims := [0]
  operandBatchingDims := []
  startIndicesBatchingDims := []
  startIndexMap := [0]
  indexVectorDim := 1
  sliceSizes := ![1, 128]
  wf := gather_S1000x128_S2048x1_S2048x128_1_0_n_n_0_1_1128_wf

class Facts : Prop extends Facts₀ where

variable [Facts]
-- ==== Proof.PreFacts.lean ====
/-
  What the precondition says of the inputs.

  The precondition is the conjunction of four statements, each an "all" over an array of truth values:
  |f(i, d)| < +∞ for every sample coordinate, |c(k, d)| < +∞ for every centre coordinate, 0 ≤ ℓ(i) for every label and
  ℓ(i) < 1000 for every label (labels read as signed 32-bit integers). Read back one element at a time:

  * a conjunction of truth values is 1 exactly when each is, and an "all" that is 1 had a 1 at every index;
  * on the extended reals |x| is max x (−x), and the word 0x7F800000 denotes +∞; max x (−x) < +∞ excludes x = +∞
    (then max x (−x) = +∞) and x = −∞ (then −x = +∞), so x is a real number;
  * a signed comparison of words that is 1 is the comparison of their signed values, and the words 0 and 1000 have the
    signed values 0 and 1000.

  So under the precondition every f(i, d) and every c(k, d) is a real number and every label lies in [0, 1000).
-/
import proofs.«409873_j38113539784899_3_alg».proof.Pre_finite_inputs
import Idealize.ShloMosaic.Lib.ReduceAll
import Idealize.ShloMosaic.Lib.StableHlo.Predicate
import Idealize.ShloMosaic.PureOps.Ideal.Laws
import Idealize.ShloMosaic.Lib.ValueIdx

noncomputable section

namespace Cert.CentreLoss

open Idealize.ShloMosaic

/-- The f32 word 0x7F800000 (exponent all ones, fraction zero, sign clear) denotes +∞. -/
theorem ofBits_inf_f32 : Ideal.ofBits .f32 0x7F800000#32 = (⊤ : EReal) := by
  simp [Ideal.ofBits, Ideal.ieee]

/-- The ordered "less than" of two extended reals is the truth value 1 exactly when the first is below the second. -/
theorem cmp_olt_eq_one (a b : EReal) : Ideal.cmp .olt a b = 1#1 ↔ a < b := by
  simp only [Ideal.cmp, StableHlo.Predicate.ofBool_eq_one_iff, decide_eq_true_eq]

/-- An extended real whose absolute value max x (−x) is below +∞ is a real number: at x = −∞ the second operand of the
    maximum is +∞, at x = +∞ the first. -/
theorem real_of_abs_lt_top (x : EReal) (h : max x (-x) < (⊤ : EReal)) : ∃ r : ℝ, x = (r : EReal) := by
  induction x using EReal.rec with
  | bot => exact absurd h (by rw [EReal.neg_bot, max_eq_right bot_le]; exact lt_irrefl _)
  | coe r => exact ⟨r, rfl⟩
  | top => exact absurd h (by rw [max_eq_left le_top]; exact lt_irrefl _)

/-- The element test of the precondition's float conjuncts, |x| < (the word 0x7F800000), says x is a real number. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  change Ideal.cmp .olt (max x (-x)) (Ideal.ofBits .f32 0x7F800000#32) = 1#1 at h
  rw [ofBits_inf_f32, cmp_olt_eq_one] at h
  exact real_of_abs_lt_top x h

/-- The element tests of the precondition's integer conjuncts, 0 ≤ w and w < 1000 signed, say that the signed value of
    the word w lies in [0, 1000). -/
theorem range_of_cmpi (w : BitVec 32) (h0 : IntOp.cmpi .sge w 0#32 = 1#1) (h1 : IntOp.cmpi .slt w 1000#32 = 1#1) :
    0 ≤ w.toInt ∧ w.toInt < 1000 := by
  rw [IntOp.cmpi_sge] at h0
  rw [IntOp.cmpi_slt] at h1
  have z : (0#32 : BitVec 32).toInt = 0 := by decide
  have k : (1000#32 : BitVec 32).toInt = 1000 := by decide
  rw [z] at h0
  rw [k] at h1
  exact ⟨h0, h1⟩

/-- The shape of a single truth value has one index. -/
instance : Subsingleton Cert.Pre_finite_inputs.S_.Idx := ⟨fun a b => funext fun d => d.elim0⟩

/-- THE PRECONDITION DECODED: every sample coordinate and every centre coordinate is a real number, and every label,
    read signed, lies in [0, 1000). -/
theorem domain_of_pre [Cert.Pre_finite_inputs.Facts]
    (f : FVec Ideal Cert.Pre_finite_inputs.S2048x128 .f32) (lab : IVec Cert.Pre_finite_inputs.S2048 32)
    (c : FVec Ideal Cert.Pre_finite_inputs.S1000x128 .f32)
    (h : Cert.Pre_finite_inputs.fn (F := Ideal) f lab c = fun _ => 1#1) :
    (∀ j, ∃ r : ℝ, f j = (r : EReal)) ∧ (∀ j, ∃ r : ℝ, c j = (r : EReal)) ∧ (∀ j, 0 ≤ (lab j).toInt ∧ (lab j).toInt < 1000) := by
  -- the one truth value the precondition computes, as the conjunction of its four "all"s
  have e := congrFun h ValueIdx.ix0
  dsimp only [Cert.Pre_finite_inputs.fn, Cert.Pre_finite_inputs.fn_part1] at e
  simp only [andi, IntOp.andi_eq_one] at e
  obtain ⟨⟨⟨hf, hc⟩, hlo⟩, hhi⟩ := e
  refine ⟨fun j => ?_, fun j => ?_, fun j => ?_⟩
  · -- |f j| < +∞
    have hj := Host.reduce_andi_all _ _ _ _ _ hf j
    exact real_of_abs_lt_inf (f j) hj
  · -- |c j| < +∞
    have hj := Host.reduce_andi_all _ _ _ _ _ hc j
    exact real_of_abs_lt_inf (c j) hj
  · -- 0 ≤ lab j and lab j < 1000, signed
    have h0 := Host.reduce_andi_all _ _ _ _ _ hlo j
    have h1 := Host.reduce_andi_all _ _ _ _ _ hhi j
    exact range_of_cmpi (lab j) h0 h1

end Cert.CentreLoss

end
-- ==== Proof.Spec.lean ====
/-
  The centre loss, as two formulas.

  Data: 2048 samples f(i, ·) ∈ ℝ¹²⁸, 1000 class centres c(k, ·) ∈ ℝ¹²⁸ and a label ℓ(i) per sample. Three results:
  the logits −½·D(i, k), where D(i, k) = Σ_d (f(i, d) − c(k, d))² is the squared distance of sample i to centre k;
  the margin logits, in which the entry of a sample's own class is doubled; and the likelihood term
  (1/2048)·Σ_i D(i, ℓ(i)) / 2.

  One program sums the squared differences as written (the forms `direct…` below). The other expands the square,
  D(i, k) = Σ_d f(i, d)² + Σ_d c(k, d)² − 2·Σ_d f(i, d)·c(k, d), picks a sample's own distance out of its row of
  distances with the indicator [ℓ(i) = k], adds these over blocks of 512 samples, keeps each block's total in the first
  of 128 lanes of a row of 512 (the other lanes zero), and finally adds the 512 lanes and scales by 1/4096 (the forms
  `expanded…`). The f32 words both carry (−½, 1, 2, 1/2048, 1/4096) are kept as the words they are.
-/
import Idealize.ShloMosaic.PureOps.Ideal.Laws
import Idealize.ShloMosaic.Lib.ValueIdx

noncomputable section

namespace Cert.CentreLoss

open Idealize.ShloMosaic Idealize.ShloMosaic.ValueIdx

abbrev SFeat : Shape := ⟨2, ![2048, 128]⟩
abbrev SCen : Shape := ⟨2, ![1000, 128]⟩
abbrev SLab : Shape := ⟨1, ![2048]⟩
abbrev SOut : Shape := ⟨2, ![2048, 1000]⟩
abbrev SLanes : Shape := ⟨2, ![1, 512]⟩
abbrev SScalar : Shape := ⟨0, ![]⟩

/-- −½, 1, 2, 1/2048 and 1/4096 as the f32 words the programs carry. -/
abbrev wNegHalf : EReal := Ideal.ofBits .f32 0xBF000000#32
abbrev wOne : EReal := Ideal.ofBits .f32 0x3F800000#32
abbrev wTwo : EReal := Ideal.ofBits .f32 0x40000000#32
abbrev wInv2048 : EReal := Ideal.ofBits .f32 0x3A000000#32
abbrev wInv4096 : EReal := Ideal.ofBits .f32 0x39800000#32

variable (f : FVec Ideal SFeat .f32) (lab : IVec SLab 32) (c : FVec Ideal SCen .f32)

/-- D(i, k), the squared differences summed as written. -/
def sqDist (i : Fin 2048) (k : Fin 1000) : EReal :=
  ∑ d : Fin 128, (f (ix2 i d) - c (ix2 k d)) * (f (ix2 i d) - c (ix2 k d))

/-- D(i, k) with the square expanded: ‖f(i)‖² + ‖c(k)‖² − 2·⟨f(i), c(k)⟩. -/
def sqDistExpanded (i : Fin 2048) (k : Fin 1000) : EReal :=
  ((∑ d : Fin 128, f (ix2 i d) * f (ix2 i d)) + ∑ d : Fin 128, c (ix2 k d) * c (ix2 k d))
    - wTwo * ∑ d : Fin 128, f (ix2 i d) * c (ix2 k d)

/-- The indicator [ℓ(i) = k], as an extended real. -/
def ownClass (i : Fin 2048) (k : Fin 1000) : EReal :=
  if lab (ix1 i) = BitVec.ofNat 32 k.val then 1 else 0

/-- The centre row sample i's label selects (a label beyond the last row selects the last row). -/
def rowOf (i : Fin 2048) : Fin 1000 := ⟨min (lab (ix1 i)).toNat 999, by omega⟩

/-! ## Summed as written -/

def directLogits : FVec Ideal SOut .f32 := fun j => wNegHalf * sqDist f c (j 0) (j 1)

def directMargin : FVec Ideal SOut .f32 := fun j =>
  wNegHalf * (sqDist f c (j 0) (j 1) * (ownClass lab (j 0) (j 1) * wOne + wOne))

def directLikelihood : FVec Ideal SScalar .f32 := fun _ =>
  Ideal.div (wInv2048 * ∑ j : SFeat.Idx,
    (f j - c (ix2 (rowOf lab (j 0)) (j 1))) * (f j - c (ix2 (rowOf lab (j 0)) (j 1)))) wTwo

/-! ## Expanded, and the likelihood gathered through the indicator and the lanes -/

def expandedLogits : FVec Ideal SOut .f32 := fun j => wNegHalf * sqDistExpanded f c (j 0) (j 1)

def expandedMargin : FVec Ideal SOut .f32 := fun j =>
  (wNegHalf * sqDistExpanded f c (j 0) (j 1)) * (wOne + wOne * ownClass lab (j 0) (j 1))

/-- Sample r of block t. -/
def sampleOf (t : Fin 4) (r : Fin 512) : Fin 2048 := ⟨512 * t.val + r.val, by omega⟩

/-- Block t's total Σ_r Σ_k D(512t + r, k)·[ℓ(512t + r) = k]. -/
def blockTotal (t : Fin 4) : EReal :=
  ∑ r : Fin 512, ∑ k : Fin 1000, sqDistExpanded f c (sampleOf t r) k * ownClass lab (sampleOf t r) k

/-- The row of 512 lanes: lane 128t holds block t's total, every other lane zero. -/
def lanes : FVec Ideal SLanes .f32 := fun j =>
  if (j 1).val % 128 = 0 then blockTotal f lab c ⟨(j 1).val / 128, by have h : (j 1).val < 512 := (j 1).isLt; omega⟩ else 0

def expandedLikelihood : FVec Ideal SScalar .f32 := fun _ =>
  (∑ j : SLanes.Idx, lanes f lab c j) * wInv4096

end Cert.CentreLoss

end
-- ==== Proof.RefLogits.lean ====
/-
  The reference program's first two results are the two formulas "summed as written".

  The program forms the differences f(i, d) − c(k, d) over all triples (i, k, d), squares them, and adds the squares
  over d onto the zero word: at (i, k) that stage is D(i, k). Its logits are the word −½ times that stage. For the
  margin it compares, at (i, k), the label word ℓ(i) with the word of the column number k, and converts the resulting
  bit to a float; over the extended reals the conversion of a bit is 1 or 0, so that stage is the indicator
  [ℓ(i) = k]. The margin logits are −½ · (D(i, k) · ([ℓ(i) = k] · 1 + 1)), with −½ and 1 kept as the words they are.
-/
import proofs.«409873_j38113539784899_3_alg».proof.Proof.Gen.ReferenceIdeal.Read
import proofs.«409873_j38113539784899_3_alg».proof.Proof.Spec

noncomputable section

namespace Cert.ReferenceIdeal.RefValue

open Idealize.ShloMosaic Idealize.ShloMosaic.ValueIdx Cert.ReferenceIdeal Cert.ReferenceIdeal.Read

/-- The bit "a = b" of two 32-bit words, converted unsigned to a float, is the indicator of a = b: the bit is the
    word 1 when the words agree and the word 0 when they differ, and the conversion reads it as the number it is. -/
theorem uitofp_cmpi_eq_indicator (a b : BitVec 32) :
    FloatOps.uitofp (F := Ideal) .f32 (IntOp.cmpi .eq a b) = if a = b then (1 : EReal) else 0 := by
  show (((IntOp.cmpi .eq a b).toNat : ℝ) : EReal) = _
  have hc : IntOp.cmpi .eq a b = BitVec.ofBool (a == b) := rfl
  rw [hc]
  by_cases h : a = b
  · rw [if_pos h, beq_iff_eq.mpr h, BitVec.toNat_ofBool, Bool.toNat_true, Nat.cast_one, EReal.coe_one]
  · rw [if_neg h, beq_eq_false_iff_ne.mpr h, BitVec.toNat_ofBool, Bool.toNat_false, Nat.cast_zero, EReal.coe_zero]

/-- The stage that adds the squared differences over d, read at (p, q), is D(p, q): the two broadcasts read f at
    (p, d) and c at (q, d), and the sum starts from the zero word. -/
theorem val_main_v6_eq_sqDist (x0 : FVec Ideal S2048x128 .f32) (x2 : FVec Ideal S1000x128 .f32)
    (p : Fin 2048) (q : Fin 1000) :
    val_main_v6 (F := Ideal) x0 x2 (ix2 p q) = Cert.CentreLoss.sqDist x0 x2 p q := by
  have hf : ∀ k : Fin 128, idx_main_v0 (idx_main_v2 (idx_main_v6 (ix2 p q) k)) = ix2 p k := fun k =>
    funext fun a => Fin.ext (by match a with | ⟨0, _⟩ => rfl | ⟨1, _⟩ => rfl)
  have hc : ∀ k : Fin 128, idx_main_v1 (idx_main_v3 (idx_main_v6 (ix2 p q) k)) = ix2 q k := fun k =>
    funext fun a => Fin.ext (by match a with | ⟨0, _⟩ => rfl | ⟨1, _⟩ => rfl)
  rw [val_main_v6_apply, val_main_cst_apply]
  simp only [val_main_v5_apply, val_main_v4_apply, val_main_v2_apply, val_main_v3_apply, val_main_v0_apply,
    val_main_v1_apply, hf, hc, Ideal.mulf_def, Ideal.subf_def, Ideal.ofBits_def, Ideal.ofBits_zero_f32, zero_add]
  rfl

/-- The one-hot stage, read at (p, q), is the indicator [ℓ(p) = q]: the label is broadcast along the row, the column
    numbers along the column, and column q holds the 32-bit word of the number q. -/
theorem val_main_v7_eq_ownClass (x1 : IVec S2048 32) (p : Fin 2048) (q : Fin 1000) :
    val_main_v7 (F := Ideal) x1 (ix2 p q) = Cert.CentreLoss.ownClass x1 p q := by
  have hl : idx_main_call0_v0 (idx_main_call0_v2 (ix2 p q)) = ix1 p :=
    funext fun a => Fin.ext (by match a with | ⟨0, _⟩ => rfl)
  rw [val_main_v7_apply, val_main_call0_v4_apply, val_main_call0_v2_apply, val_main_call0_v0_apply,
    val_main_call0_v3_apply, val_main_call0_v1_apply, hl, uitofp_cmpi_eq_indicator]
  rfl

/-- The reference's logits are −½ · D(i, k). -/
theorem logits_eq (x0 : FVec Ideal S2048x128 .f32) (x2 : FVec Ideal S1000x128 .f32) :
    val_main_v16 (F := Ideal) x0 x2 = Cert.CentreLoss.directLogits x0 x2 := by
  funext j
  obtain ⟨p, q, rfl⟩ : ∃ (p : Fin 2048) (q : Fin 1000), j = ix2 p q := ⟨j 0, j 1, eq_ix2 j⟩
  rw [val_main_v16_apply, val_main_v15_apply, val_main_cst_3_apply, val_main_v6_eq_sqDist]
  simp only [Ideal.mulf_def, Ideal.ofBits_def]
  rfl

/-- The reference's margin logits are −½ · (D(i, k) · ([ℓ(i) = k] · 1 + 1)). -/
theorem margin_eq (x0 : FVec Ideal S2048x128 .f32) (x1 : IVec S2048 32) (x2 : FVec Ideal S1000x128 .f32) :
    val_main_v14 (F := Ideal) x0 x1 x2 = Cert.CentreLoss.directMargin x0 x1 x2 := by
  funext j
  obtain ⟨p, q, rfl⟩ : ∃ (p : Fin 2048) (q : Fin 1000), j = ix2 p q := ⟨j 0, j 1, eq_ix2 j⟩
  rw [val_main_v14_apply, val_main_v13_apply, val_main_cst_2_apply, val_main_v12_apply, val_main_v6_eq_sqDist,
    val_main_v11_apply, val_main_v9_apply, val_main_v7_eq_ownClass, val_main_v8_apply, val_main_cst_0_apply,
    val_main_v10_apply, val_main_cst_1_apply]
  simp only [Ideal.mulf_def, Ideal.addf_def, Ideal.ofBits_def]
  rfl

end Cert.ReferenceIdeal.RefValue

end
-- ==== Proof.RefLikelihood.lean ====
/-
  The reference program's likelihood term.

  The program wraps a negative label by the number of classes, gathers for every sample the centre row its
  label names, subtracts that row from the sample, squares, adds the 2048 · 128 squares up from zero, multiplies
  the total by the word 1/2048 and divides by the word 2. For labels ℓ(i) with 0 ≤ ℓ(i) < 1000 nothing is
  wrapped and no start index is clamped, so the row gathered for sample i is row ℓ(i), and the result is
  (1/2048) · Σ_{i, d} (f(i, d) − c(ℓ(i), d))² / 2: the formula directLikelihood.
-/
import proofs.«409873_j38113539784899_3_alg».proof.Proof.Gen.ReferenceIdeal.Read
import proofs.«409873_j38113539784899_3_alg».proof.Proof.Spec
import Idealize.ShloMosaic.PureOps.Ideal.Laws
import Idealize.ShloMosaic.Lib.ValueIdx
import Mathlib.Algebra.BigOperators.Group.Finset.Basic

noncomputable section

namespace Cert.ReferenceIdeal.RefValue

open Idealize.ShloMosaic Idealize.ShloMosaic.ValueIdx Cert.ReferenceIdeal Cert.ReferenceIdeal.Read

variable {F : FTy → Type} [FloatOps F]

/-- The dimension numbers of the row gather: operand [1000, 128], start indices [2048, 1], result [2048, 128]. -/
local notation "rowDims" => gather_S1000x128_S2048x1_S2048x128_1_0_n_n_0_1_1128

/-! ## Words -/

/-- A word that is not negative, read signed, is not below zero: the comparison's bit is 0. -/
theorem lik_slt_zero_bit (w : BitVec 32) (h : 0 ≤ w.toInt) : IntOp.cmpi .slt w 0#32 = 0#1 := by
  have hlt : w.slt 0#32 = false := by
    apply Bool.eq_false_iff.mpr
    intro hc
    have hc' := BitVec.slt_iff_toInt_lt.mp hc
    rw [BitVec.toInt_zero] at hc'
    omega
  show BitVec.ofBool (w.slt 0#32) = 0#1
  rw [hlt]
  rfl

/-- A word that is not negative, read signed, is the natural number it is read unsigned. -/
theorem lik_toNat_of_nonneg (w : BitVec 32) (h : 0 ≤ w.toInt) : w.toInt.toNat = w.toNat := by
  have e := BitVec.toInt_eq_toNat_cond w
  have hw := w.isLt
  omega

/-- Axis 1 of a rank-2 array is not its axis 0. -/
theorem lik_one_ne_zero : ¬ ((1 : Fin S1000x128.rank) = 0) := by decide

/-! ## The wrapped label -/

/-- The label of a sample, wrapped by 1000 if negative, is the label itself when it is not negative. -/
theorem lik_wrap_apply (x1 : IVec S2048 32) (i : S2048.Idx) (h : 0 ≤ (x1 i).toInt) :
    val_main_v21 (F := F) x1 i = x1 i := by
  rw [val_main_v21_apply, val_main_v18_apply, val_main_v17_apply, val_main_c_apply, lik_slt_zero_bit _ h,
    select_zero]

/-! ## The row gather read at an index -/

/-- The start-indices index [i, 0] at which result index (i, d) reads its start index. -/
theorem lik_siIdx (j : S2048x128.Idx)
    (h0 : (0 : Fin S1000x128.rank) ∈ (rowDims).startIndexMap) :
    (rowDims).siIdx j ⟨List.idxOf (0 : Fin S1000x128.rank) (rowDims).startIndexMap, List.idxOf_lt_length_iff.2 h0⟩
      = ix2 (n0 := 2048) (n1 := 1) (j 0) 0 := by
  funext b
  refine Fin.ext ?_
  match b with
  | ⟨0, _⟩ => rfl
  | ⟨1, _⟩ => rfl

/-- On the operand's row axis the gather reads at the start index, read signed and clamped into [0, 999]. -/
theorem lik_coord_row (idx : IVec S2048x1 32) (j : S2048x128.Idx) :
    (rowDims).start j idx 0 + (rowDims).batchCoord j 0 + (rowDims).offCoord j 0
      = min (idx (ix2 (j 0) 0)).toInt.toNat 999 := by
  have h0 : (0 : Fin S1000x128.rank) ∈ (rowDims).startIndexMap := List.mem_singleton.mpr rfl
  have hb : (rowDims).batchCoord j 0 = 0 := GatherDims.batchCoord_eq_zero _ _ _ List.not_mem_nil
  have ho : (rowDims).offCoord j 0 = 0 :=
    GatherDims.offCoord_eq_zero _ _ _ (fun h => ((GatherDims.mem_sKept _ _).mp h).1 (List.mem_singleton.mpr rfl))
  have hs : (rowDims).start j idx 0 = min (idx (ix2 (j 0) 0)).toInt.toNat 999 := by
    unfold GatherDims.start
    rw [dif_pos h0, lik_siIdx j h0]
    rfl
  omega

/-- On the operand's column axis the gather reads at the result's column. -/
theorem lik_coord_col (idx : IVec S2048x1 32) (j : S2048x128.Idx) :
    (rowDims).start j idx 1 + (rowDims).batchCoord j 1 + (rowDims).offCoord j 1 = (j 1).val := by
  have h1 : ¬ (1 : Fin S1000x128.rank) ∈ (rowDims).startIndexMap :=
    fun h => lik_one_ne_zero (List.mem_singleton.mp h)
  have hk : (1 : Fin S1000x128.rank) ∈ (rowDims).sKept :=
    (GatherDims.mem_sKept _ _).mpr ⟨fun h => lik_one_ne_zero (List.mem_singleton.mp h), List.not_mem_nil⟩
  have hb : (rowDims).batchCoord j 1 = 0 := GatherDims.batchCoord_eq_zero _ _ _ List.not_mem_nil
  have hs : (rowDims).start j idx 1 = 0 := by
    unfold GatherDims.start
    exact dif_neg h1
  have ho : (rowDims).offCoord j 1 = (j 1).val := by
    unfold GatherDims.offCoord
    rw [dif_pos hk]
    rfl
  omega

/-- THE ROW GATHER READ AT (i, d): the operand at column d of the row named by the start index [i, 0], read signed
    and clamped into [0, 999]. -/
theorem lik_gather_read {α : Type} (x : S1000x128.Idx → α) (idx : IVec S2048x1 32) (j : S2048x128.Idx) :
    Host.gather rowDims x idx j
      = x (ix2 (⟨min (idx (ix2 (j 0) 0)).toInt.toNat 999,
          Nat.lt_succ_of_le (Nat.min_le_right _ _)⟩ : Fin 1000) (j 1)) := by
  show x ((rowDims).operandIdx j idx) = _
  refine congrArg x (funext fun a => Fin.ext ?_)
  match a with
  | ⟨0, _⟩ => exact lik_coord_row idx j
  | ⟨1, _⟩ => exact lik_coord_col idx j

/-- The gathered centres at (i, d), for labels that are not negative: centre row rowOf i (the label, at most 999)
    at column d. -/
theorem lik_v23_apply (x1 : IVec S2048 32) (x2 : FVec F S1000x128 .f32)
    (hl : ∀ j, 0 ≤ (x1 j).toInt ∧ (x1 j).toInt < 1000) (j : S2048x128.Idx) :
    val_main_v23 (F := F) x1 x2 j = x2 (ix2 (Cert.CentreLoss.rowOf x1 (j 0)) (j 1)) := by
  unfold val_main_v23
  rw [lik_gather_read]
  refine congrArg x2 (congrArg (fun r : Fin 1000 => (ix2 r (j 1) : S1000x128.Idx)) (Fin.ext ?_))
  show min _ 999 = min (x1 (ix1 (j 0))).toNat 999
  have hi : idx_main_v22 (ix2 (j 0) 0) = ix1 (n := 2048) (j 0) := by
    funext a
    match a with
    | ⟨0, _⟩ => exact Fin.ext rfl
  rw [val_main_v22_apply, hi, lik_wrap_apply (F := F) x1 _ (hl _).1, lik_toNat_of_nonneg _ (hl _).1]

/-! ## The likelihood term -/

/-- The sum of the squared differences the program forms is the sum the formula writes. -/
theorem lik_sum_eq (x0 : FVec Ideal S2048x128 .f32) (x1 : IVec S2048 32) (x2 : FVec Ideal S1000x128 .f32)
    (hl : ∀ j, 0 ≤ (x1 j).toInt ∧ (x1 j).toInt < 1000) :
    (∑ i : S2048x128.Idx, val_main_v25 (F := Ideal) x0 x1 x2 i)
      = ∑ i : S2048x128.Idx, (x0 i - x2 (ix2 (Cert.CentreLoss.rowOf x1 (i 0)) (i 1)))
          * (x0 i - x2 (ix2 (Cert.CentreLoss.rowOf x1 (i 0)) (i 1))) := by
  refine Finset.sum_congr rfl fun i _ => ?_
  exact congrArg (fun t : Ideal .f32 => (x0 i - t) * (x0 i - t)) (lik_v23_apply (F := Ideal) x1 x2 hl i)

/-- The reference's third result is the likelihood term summed as written, for labels in range. -/
theorem likelihood_eq (x0 : FVec Ideal S2048x128 .f32) (x1 : IVec S2048 32) (x2 : FVec Ideal S1000x128 .f32)
    (hl : ∀ j, 0 ≤ (x1 j).toInt ∧ (x1 j).toInt < 1000) :
    val_main_v28 (F := Ideal) x0 x1 x2 = Cert.CentreLoss.directLikelihood x0 x1 x2 := by
  funext j
  rw [val_main_v28_apply, val_main_v27_apply, val_main_cst_6_apply, val_main_cst_7_apply,
    val_main_v26_apply, val_main_cst_5_apply]
  show Ideal.div (Ideal.ofBits .f32 0x3A000000#32
        * (Ideal.ofBits .f32 0x00000000#32 + ∑ i : S2048x128.Idx, val_main_v25 (F := Ideal) x0 x1 x2 i))
      (Ideal.ofBits .f32 0x40000000#32)
    = Ideal.div (Ideal.ofBits .f32 0x3A000000#32
        * ∑ i : S2048x128.Idx, (x0 i - x2 (ix2 (Cert.CentreLoss.rowOf x1 (i 0)) (i 1)))
            * (x0 i - x2 (ix2 (Cert.CentreLoss.rowOf x1 (i 0)) (i 1))))
      (Ideal.ofBits .f32 0x40000000#32)
  rw [Ideal.ofBits_zero_f32, zero_add, lik_sum_eq x0 x1 x2 hl]

end Cert.ReferenceIdeal.RefValue

end
-- ==== Proof.Expansion.lean ====
/-
  The squared distance with its square expanded.

  For real vectors a, b of any finite length,
      Σ_d a_d² + Σ_d b_d² − 2·Σ_d a_d·b_d = Σ_d (a_d − b_d)²,
  term by term the identity a² + b² − 2ab = (a − b)². On the extended reals the same identity needs every
  entry finite: multiplication does not distribute over addition at ±∞ (and ⊤ − ⊤ is ⊥), so the law is proved
  over ℝ and carried across the inclusion ℝ → [−∞, +∞], which commutes with finite sums, products and
  differences. That is where the finiteness of the samples and of the centres is used, and the only place.

  The logits are the word −½ times D on both sides, so they follow from D's equality alone. For the margin
  logits the two sides differ, beyond D, by a regrouping of one product: (w·D)·(u + u·x) = w·(D·(x·u + u)),
  which holds for all extended reals because their multiplication is associative and commutative and their
  addition commutative; the words w = −½ and u = 1 are never evaluated.
-/
import proofs.«409873_j38113539784899_3_alg».proof.Proof.Spec
import Mathlib.Data.EReal.Operations
import Mathlib.Algebra.BigOperators.Group.Finset.Basic
import Mathlib.Algebra.BigOperators.Ring.Finset
import Mathlib.Tactic.Choose
import Mathlib.Tactic.NormNum
import Mathlib.Tactic.Ring

noncomputable section

namespace Cert.CentreLoss

open Idealize.ShloMosaic Idealize.ShloMosaic.ValueIdx

namespace Expansion

/-- The inclusion of the reals in the extended reals commutes with a finite sum. -/
theorem coe_sum {ι : Type*} (s : Finset ι) (g : ι → ℝ) :
    ((∑ d ∈ s, g d : ℝ) : EReal) = ∑ d ∈ s, ((g d : ℝ) : EReal) := by
  classical
  induction s using Finset.induction_on with
  | empty => rw [Finset.sum_empty, Finset.sum_empty, EReal.coe_zero]
  | insert a s ha ih => rw [Finset.sum_insert ha, Finset.sum_insert ha, EReal.coe_add, ih]

/-- Over the reals: Σ a² + Σ b² − 2·Σ a·b = Σ (a − b)². -/
theorem real_expand {n : ℕ} (a b : Fin n → ℝ) :
    ((∑ d, a d * a d) + ∑ d, b d * b d) - 2 * ∑ d, a d * b d
      = ∑ d, (a d - b d) * (a d - b d) := by
  rw [Finset.mul_sum, ← Finset.sum_add_distrib, ← Finset.sum_sub_distrib]
  exact Finset.sum_congr rfl fun d _ => by ring

/-- The same law on the extended reals, at finite entries; `t` is any name of the real number two. -/
theorem ereal_expand {n : ℕ} (a b : Fin n → ℝ) (t : EReal) (ht : t = ((2 : ℝ) : EReal)) :
    ((∑ d, (a d : EReal) * (a d : EReal)) + ∑ d, (b d : EReal) * (b d : EReal))
        - t * ∑ d, (a d : EReal) * (b d : EReal)
      = ∑ d, ((a d : EReal) - (b d : EReal)) * ((a d : EReal) - (b d : EReal)) := by
  subst ht
  have haa : ∑ d, (a d : EReal) * (a d : EReal) = ((∑ d, a d * a d : ℝ) : EReal) := by
    rw [coe_sum]
    exact Finset.sum_congr rfl fun d _ => (EReal.coe_mul _ _).symm
  have hbb : ∑ d, (b d : EReal) * (b d : EReal) = ((∑ d, b d * b d : ℝ) : EReal) := by
    rw [coe_sum]
    exact Finset.sum_congr rfl fun d _ => (EReal.coe_mul _ _).symm
  have hab : ∑ d, (a d : EReal) * (b d : EReal) = ((∑ d, a d * b d : ℝ) : EReal) := by
    rw [coe_sum]
    exact Finset.sum_congr rfl fun d _ => (EReal.coe_mul _ _).symm
  have hdd : ∑ d, ((a d : EReal) - (b d : EReal)) * ((a d : EReal) - (b d : EReal))
      = ((∑ d, (a d - b d) * (a d - b d) : ℝ) : EReal) := by
    rw [coe_sum]
    exact Finset.sum_congr rfl fun d _ => by rw [EReal.coe_mul, EReal.coe_sub]
  rw [haa, hbb, hab, hdd, ← EReal.coe_add, ← EReal.coe_mul, ← EReal.coe_sub, real_expand a b]

/-- The f32 word 0x40000000 (sign 0, exponent 128, fraction 0) is the real number two: 2²³ · 2^(128 − 127 − 23). -/
theorem wTwo_eq : wTwo = ((2 : ℝ) : EReal) := by
  show Ideal.ofBits .f32 0x40000000#32 = ((2 : ℝ) : EReal)
  simp [Ideal.ofBits, Ideal.ieee, -EReal.coe_mul] <;> norm_num

/-- One product regrouped: valid for all extended reals, no finiteness and no value of a word needed. -/
theorem margin_regroup (w D u x : EReal) : (w * D) * (u + u * x) = w * (D * (x * u + u)) := by
  rw [mul_assoc, add_comm u (u * x), mul_comm u x]

end Expansion

/-- D(i, k) expanded is D(i, k), for finite samples and centres. -/
theorem sqDistExpanded_eq (f : FVec Ideal SFeat .f32) (c : FVec Ideal SCen .f32)
    (hf : ∀ j, ∃ r : ℝ, f j = (r : EReal)) (hc : ∀ j, ∃ r : ℝ, c j = (r : EReal)) (i : Fin 2048) (k : Fin 1000) :
    sqDistExpanded f c i k = sqDist f c i k := by
  choose f' hf' using hf
  choose c' hc' using hc
  show ((∑ d : Fin 128, f (ix2 i d) * f (ix2 i d)) + ∑ d : Fin 128, c (ix2 k d) * c (ix2 k d))
      - wTwo * ∑ d : Fin 128, f (ix2 i d) * c (ix2 k d)
    = ∑ d : Fin 128, (f (ix2 i d) - c (ix2 k d)) * (f (ix2 i d) - c (ix2 k d))
  simp only [hf', hc']
  exact Expansion.ereal_expand (fun d => f' (ix2 i d)) (fun d => c' (ix2 k d)) wTwo Expansion.wTwo_eq

/-- The logits −½·D agree entry by entry. -/
theorem expandedLogits_eq (f : FVec Ideal SFeat .f32) (c : FVec Ideal SCen .f32)
    (hf : ∀ j, ∃ r : ℝ, f j = (r : EReal)) (hc : ∀ j, ∃ r : ℝ, c j = (r : EReal)) :
    expandedLogits f c = directLogits f c := by
  funext j
  show wNegHalf * sqDistExpanded f c (j 0) (j 1) = wNegHalf * sqDist f c (j 0) (j 1)
  exact congrArg (fun D => wNegHalf * D) (sqDistExpanded_eq f c hf hc (j 0) (j 1))

/-- The margin logits agree entry by entry: D's equality, then one product regrouped. -/
theorem expandedMargin_eq (f : FVec Ideal SFeat .f32) (lab : IVec SLab 32) (c : FVec Ideal SCen .f32)
    (hf : ∀ j, ∃ r : ℝ, f j = (r : EReal)) (hc : ∀ j, ∃ r : ℝ, c j = (r : EReal)) :
    expandedMargin f lab c = directMargin f lab c := by
  funext j
  show (wNegHalf * sqDistExpanded f c (j 0) (j 1)) * (wOne + wOne * ownClass lab (j 0) (j 1))
      = wNegHalf * (sqDist f c (j 0) (j 1) * (ownClass lab (j 0) (j 1) * wOne + wOne))
  exact (congrArg (fun D => (wNegHalf * D) * (wOne + wOne * ownClass lab (j 0) (j 1)))
      (sqDistExpanded_eq f c hf hc (j 0) (j 1))).trans
    (Expansion.margin_regroup wNegHalf (sqDist f c (j 0) (j 1)) wOne (ownClass lab (j 0) (j 1)))

end Cert.CentreLoss

end
-- ==== Proof.Regroup.lean ====
/-
  The likelihood term, regrouped.

  The expanded form picks each sample's own distance out of its row of 1000 distances with the indicator [ℓ(i) = k],
  adds these over four blocks of 512 samples, keeps block t's total in lane 128·t of a row of 512 lanes (every other
  lane zero), adds the 512 lanes and multiplies by 1/4096. The direct form adds the squared differences to the own
  centre over all 2048 · 128 entries, multiplies by 1/2048 and divides by 2. Given that the expanded squared distance
  is the squared distance, the two are the same extended real. The steps, each a lemma of its own:

  (1) the 512 lanes add up to the four block totals: lane 128·t + d is zero unless d = 0;
  (2) for a label in [0, 1000) the indicator [ℓ(i) = k] is 1 at k = ℓ(i) and 0 elsewhere, so the row of distances
      weighted by it adds up to the own distance (x · 1 = x and x · 0 = 0 for every extended real);
  (3) the samples 512·t + r, t < 4 and r < 512, are all 2048 samples, each once;
  (4) a sum over samples of a sum over the 128 coordinates is the sum over the 2048 × 128 entries;
  (5) the words 0x39800000, 0x3A000000 and 0x40000000 are the reals 1/4096, 1/2048 and 2, and
      S · (1/4096) = ((1/2048) · S) / 2 for every extended real S, the infinities included.
-/
import proofs.«409873_j38113539784899_3_alg».proof.Proof.Spec
import Idealize.ShloMosaic.Lib.ValueIdx
import Mathlib.Logic.Equiv.Fin.Basic
import Mathlib.Data.Fintype.BigOperators
import Mathlib.Algebra.BigOperators.Fin
import Mathlib.Algebra.BigOperators.Group.Finset.Basic
import Mathlib.Data.EReal.Operations

namespace Cert.CentreLoss

open Idealize.ShloMosaic Idealize.ShloMosaic.ValueIdx

/-! ## Sums over m · n positions, block by block -/

/-- Position b of block a, for m blocks of n, is below m · n. -/
theorem blockIdx_lt {m n N : ℕ} (h : m * n = N) (a : Fin m) (b : Fin n) : n * a.val + b.val < N := by
  calc n * a.val + b.val < n * a.val + n := Nat.add_lt_add_left b.isLt _
    _ = n * (a.val + 1) := (Nat.mul_succ n a.val).symm
    _ ≤ n * m := Nat.mul_le_mul_left n (Nat.succ_le_of_lt a.isLt)
    _ = N := by rw [Nat.mul_comm]; exact h

/-- A sum over m · n positions is the sum over the m blocks of the sums over a block's n positions: the pair
    (a, b) is the position n·a + b. -/
theorem sum_fin_blocks {M : Type*} [AddCommMonoid M] {m n N : ℕ} (h : m * n = N) (g : Fin N → M) :
    ∑ x : Fin N, g x = ∑ a : Fin m, ∑ b : Fin n, g ⟨n * a.val + b.val, blockIdx_lt h a b⟩ := by
  subst h
  rw [← Equiv.sum_comp (finProdFinEquiv : Fin m × Fin n ≃ Fin (m * n)) g, Fintype.sum_prod_type]
  refine Finset.sum_congr rfl fun a _ => Finset.sum_congr rfl fun b _ => ?_
  refine congrArg g (Fin.ext ?_)
  show b.val + n * a.val = n * a.val + b.val
  exact Nat.add_comm _ _

/-! ## (1) The 512 lanes -/

/-- The first lane of block t holds the block's total. -/
theorem lanes_block_first (f : FVec Ideal SFeat .f32) (lab : IVec SLab 32) (c : FVec Ideal SCen .f32)
    (t : Fin 4) (d : Fin 128) (hd : d.val = 0) (h : 128 * t.val + d.val < 512) :
    lanes f lab c (ix2 (0 : Fin 1) (⟨128 * t.val + d.val, h⟩ : Fin 512)) = blockTotal f lab c t := by
  have e : (⟨(128 * t.val + d.val) / 128, by omega⟩ : Fin 4) = t :=
    Fin.ext (by show (128 * t.val + d.val) / 128 = t.val; omega)
  show (if (128 * t.val + d.val) % 128 = 0 then blockTotal f lab c ⟨(128 * t.val + d.val) / 128, _⟩ else 0) = _
  rw [if_pos (show (128 * t.val + d.val) % 128 = 0 by omega), e]

/-- Every other lane of a block is zero. -/
theorem lanes_block_rest (f : FVec Ideal SFeat .f32) (lab : IVec SLab 32) (c : FVec Ideal SCen .f32)
    (t : Fin 4) (d : Fin 128) (hd : d.val ≠ 0) (h : 128 * t.val + d.val < 512) :
    lanes f lab c (ix2 (0 : Fin 1) (⟨128 * t.val + d.val, h⟩ : Fin 512)) = 0 := by
  show (if (128 * t.val + d.val) % 128 = 0 then blockTotal f lab c ⟨(128 * t.val + d.val) / 128, _⟩ else 0) = 0
  exact if_neg (show ¬(128 * t.val + d.val) % 128 = 0 by omega)

/-- The 128 lanes of block t add up to the block's total. -/
theorem sum_block_lanes (f : FVec Ideal SFeat .f32) (lab : IVec SLab 32) (c : FVec Ideal SCen .f32) (t : Fin 4) :
    ∑ d : Fin 128, lanes f lab c (ix2 (0 : Fin 1) (⟨128 * t.val + d.val, by omega⟩ : Fin 512))
      = blockTotal f lab c t := by
  refine (Finset.sum_eq_single (0 : Fin 128) ?_ ?_).trans ?_
  · intro d _ hd
    exact lanes_block_rest f lab c t d (fun h => hd (Fin.ext h)) _
  · intro h
    exact absurd (Finset.mem_univ _) h
  · exact lanes_block_first f lab c t 0 rfl _

/-- The 512 lanes add up to the four block totals. -/
theorem sum_lanes (f : FVec Ideal SFeat .f32) (lab : IVec SLab 32) (c : FVec Ideal SCen .f32) :
    ∑ j : SLanes.Idx, lanes f lab c j = ∑ t : Fin 4, blockTotal f lab c t := by
  calc ∑ j : SLanes.Idx, lanes f lab c j
      = ∑ a : Fin 1, ∑ b : Fin 512, lanes f lab c (ix2 a b) := sum_idx2 (lanes f lab c)
    _ = ∑ b : Fin 512, lanes f lab c (ix2 (0 : Fin 1) b) :=
        Fin.sum_univ_one (fun a : Fin 1 => ∑ b : Fin 512, lanes f lab c (ix2 a b))
    _ = ∑ t : Fin 4, ∑ d : Fin 128, lanes f lab c (ix2 (0 : Fin 1) (⟨128 * t.val + d.val, by omega⟩ : Fin 512)) :=
        sum_fin_blocks (by norm_num : 4 * 128 = 512) (fun b : Fin 512 => lanes f lab c (ix2 (0 : Fin 1) b))
    _ = ∑ t : Fin 4, blockTotal f lab c t := Finset.sum_congr rfl fun t _ => sum_block_lanes f lab c t

/-! ## (2) A sample's own distance -/

/-- A 32-bit word whose signed reading lies in [0, 1000) reads the same unsigned. -/
theorem toNat_lt_of_toInt (w : BitVec 32) (h0 : 0 ≤ w.toInt) (h1 : w.toInt < 1000) : w.toNat < 1000 := by
  have hlt := w.isLt
  rw [BitVec.toInt_eq_toNat_cond] at h0 h1
  split at h0 <;> omega

/-- Such a word is the word of k, for k below 1000, exactly when its unsigned reading is k. -/
theorem word_eq_ofNat_iff (w : BitVec 32) (k : ℕ) (hk : k < 1000) : w = BitVec.ofNat 32 k ↔ w.toNat = k := by
  have hmod : k % 2 ^ 32 = k := Nat.mod_eq_of_lt (by omega)
  constructor
  · intro h
    rw [h, BitVec.toNat_ofNat]
    exact hmod
  · intro h
    apply BitVec.eq_of_toNat_eq
    rw [BitVec.toNat_ofNat, hmod]
    exact h

/-- For a label in [0, 1000), "the label's word is the word of k" says that k is the row the label selects. -/
theorem label_eq_iff (lab : IVec SLab 32) (hl : ∀ j, 0 ≤ (lab j).toInt ∧ (lab j).toInt < 1000)
    (i : Fin 2048) (k : Fin 1000) : lab (ix1 i) = BitVec.ofNat 32 k.val ↔ k = rowOf lab i := by
  have hw := toNat_lt_of_toInt (lab (ix1 i)) (hl (ix1 i)).1 (hl (ix1 i)).2
  constructor
  · intro h
    have h1 := (word_eq_ofNat_iff _ _ k.isLt).mp h
    exact Fin.ext (by show k.val = min (lab (ix1 i)).toNat 999; omega)
  · intro h
    have h1 : k.val = min (lab (ix1 i)).toNat 999 := congrArg Fin.val h
    exact (word_eq_ofNat_iff _ _ k.isLt).mpr (by omega)

/-- The indicator is one at the label's row … -/
theorem ownClass_rowOf (lab : IVec SLab 32) (hl : ∀ j, 0 ≤ (lab j).toInt ∧ (lab j).toInt < 1000) (i : Fin 2048) :
    ownClass lab i (rowOf lab i) = 1 := by
  unfold ownClass
  exact if_pos ((label_eq_iff lab hl i (rowOf lab i)).mpr rfl)

/-- … and zero at every other row. -/
theorem ownClass_other (lab : IVec SLab 32) (hl : ∀ j, 0 ≤ (lab j).toInt ∧ (lab j).toInt < 1000) (i : Fin 2048)
    (k : Fin 1000) (hk : k ≠ rowOf lab i) : ownClass lab i k = 0 := by
  unfold ownClass
  exact if_neg (fun h => hk ((label_eq_iff lab hl i k).mp h))

/-- A row of 1000 values weighted by the indicator adds up to the value at the label's row. -/
theorem sum_mul_ownClass (lab : IVec SLab 32) (hl : ∀ j, 0 ≤ (lab j).toInt ∧ (lab j).toInt < 1000)
    (g : Fin 1000 → EReal) (i : Fin 2048) : ∑ k : Fin 1000, g k * ownClass lab i k = g (rowOf lab i) := by
  refine (Finset.sum_eq_single (rowOf lab i) ?_ ?_).trans ?_
  · intro k _ hk
    rw [ownClass_other lab hl i k hk]
    exact mul_zero _
  · intro h
    exact absurd (Finset.mem_univ _) h
  · rw [ownClass_rowOf lab hl i]
    exact mul_one _

/-- Block t's total is the sum of its 512 samples' own squared distances. -/
theorem blockTotal_eq (f : FVec Ideal SFeat .f32) (lab : IVec SLab 32) (c : FVec Ideal SCen .f32)
    (hl : ∀ j, 0 ≤ (lab j).toInt ∧ (lab j).toInt < 1000)
    (hD : ∀ i k, sqDistExpanded f c i k = sqDist f c i k) (t : Fin 4) :
    blockTotal f lab c t = ∑ r : Fin 512, sqDist f c (sampleOf t r) (rowOf lab (sampleOf t r)) := by
  unfold blockTotal
  refine Finset.sum_congr rfl fun r _ => ?_
  exact (sum_mul_ownClass lab hl (sqDistExpanded f c (sampleOf t r)) (sampleOf t r)).trans (hD _ _)

/-! ## (3) The four blocks of 512 samples are the 2048 samples -/

/-- Summing over the blocks and over a block's samples is summing over all samples. -/
theorem sum_samples {M : Type*} [AddCommMonoid M] (g : Fin 2048 → M) :
    ∑ t : Fin 4, ∑ r : Fin 512, g (sampleOf t r) = ∑ i : Fin 2048, g i :=
  (sum_fin_blocks (by norm_num : 4 * 512 = 2048) g).symm

/-! ## (4) Samples by coordinates are the entries -/

/-- The own squared distances of all samples add up to the sum, over all 2048 × 128 entries, of the squared difference
    to the own centre's entry. -/
theorem sum_sqDist_own (f : FVec Ideal SFeat .f32) (lab : IVec SLab 32) (c : FVec Ideal SCen .f32) :
    ∑ i : Fin 2048, sqDist f c i (rowOf lab i)
      = ∑ j : SFeat.Idx, (f j - c (ix2 (rowOf lab (j 0)) (j 1))) * (f j - c (ix2 (rowOf lab (j 0)) (j 1))) :=
  (sum_idx2 (fun j : SFeat.Idx =>
    (f j - c (ix2 (rowOf lab (j 0)) (j 1))) * (f j - c (ix2 (rowOf lab (j 0)) (j 1))))).symm

/-- The 512 lanes add up to the sum over all entries of the squared difference to the own centre's entry. -/
theorem sum_lanes_eq (f : FVec Ideal SFeat .f32) (lab : IVec SLab 32) (c : FVec Ideal SCen .f32)
    (hl : ∀ j, 0 ≤ (lab j).toInt ∧ (lab j).toInt < 1000)
    (hD : ∀ i k, sqDistExpanded f c i k = sqDist f c i k) :
    ∑ j : SLanes.Idx, lanes f lab c j
      = ∑ j : SFeat.Idx, (f j - c (ix2 (rowOf lab (j 0)) (j 1))) * (f j - c (ix2 (rowOf lab (j 0)) (j 1))) := by
  calc ∑ j : SLanes.Idx, lanes f lab c j
      = ∑ t : Fin 4, blockTotal f lab c t := sum_lanes f lab c
    _ = ∑ t : Fin 4, ∑ r : Fin 512, sqDist f c (sampleOf t r) (rowOf lab (sampleOf t r)) :=
        Finset.sum_congr rfl fun t _ => blockTotal_eq f lab c hl hD t
    _ = ∑ i : Fin 2048, sqDist f c i (rowOf lab i) := sum_samples (fun i => sqDist f c i (rowOf lab i))
    _ = ∑ j : SFeat.Idx, (f j - c (ix2 (rowOf lab (j 0)) (j 1))) * (f j - c (ix2 (rowOf lab (j 0)) (j 1))) :=
        sum_sqDist_own f lab c

/-! ## (5) The scalars -/

/-- The word 0x39800000 is 2⁻¹². -/
theorem wInv4096_eq : wInv4096 = ((1 / 4096 : ℝ) : EReal) := by
  show Ideal.ofBits .f32 0x39800000#32 = ((1 / 4096 : ℝ) : EReal)
  simp [Ideal.ofBits, Ideal.ieee, -EReal.coe_mul]; norm_num

/-- The word 0x3A000000 is 2⁻¹¹. -/
theorem wInv2048_eq : wInv2048 = ((1 / 2048 : ℝ) : EReal) := by
  show Ideal.ofBits .f32 0x3A000000#32 = ((1 / 2048 : ℝ) : EReal)
  simp [Ideal.ofBits, Ideal.ieee, -EReal.coe_mul]; norm_num

/-- The word 0x40000000 is 2. -/
theorem wTwo_eq : wTwo = ((2 : ℝ) : EReal) := by
  show Ideal.ofBits .f32 0x40000000#32 = ((2 : ℝ) : EReal)
  simp [Ideal.ofBits, Ideal.ieee, -EReal.coe_mul]; norm_num

/-- S · (1/4096) = ((1/2048) · S) / 2, for every extended real S: the product of an extended real with finite reals
    is associative and commutative, and 1/4096 = (1/2048) · (1/2). -/
theorem scale_eq (S : EReal) : S * wInv4096 = Ideal.div (wInv2048 * S) wTwo := by
  have hr : ((1 / 2048 : ℝ) : EReal) * ((1 / 2 : ℝ) : EReal) = ((1 / 4096 : ℝ) : EReal) := by
    rw [← EReal.coe_mul]
    exact congrArg Real.toEReal (by norm_num)
  rw [wInv4096_eq, wInv2048_eq, wTwo_eq, Ideal.div_coe (by norm_num : (2 : ℝ) ≠ 0),
    mul_comm ((1 / 2048 : ℝ) : EReal) S, mul_assoc, hr]

/-! ## The likelihood term -/

/-- The likelihood gathered through the indicator and the lanes is the likelihood summed as written. -/
theorem expandedLikelihood_eq (f : FVec Ideal SFeat .f32) (lab : IVec SLab 32) (c : FVec Ideal SCen .f32)
    (hl : ∀ j, 0 ≤ (lab j).toInt ∧ (lab j).toInt < 1000)
    (hD : ∀ i k, sqDistExpanded f c i k = sqDist f c i k) :
    expandedLikelihood f lab c = directLikelihood f lab c := by
  funext _
  show (∑ j : SLanes.Idx, lanes f lab c j) * wInv4096
    = Ideal.div (wInv2048 * ∑ j : SFeat.Idx,
        (f j - c (ix2 (rowOf lab (j 0)) (j 1))) * (f j - c (ix2 (rowOf lab (j 0)) (j 1)))) wTwo
  exact (congrArg (fun S : EReal => S * wInv4096) (sum_lanes_eq f lab c hl hD)).trans (scale_eq _)

end Cert.CentreLoss
-- ==== Proof.LibDotNT.lean ====
/-
  The product of a matrix with the transpose of another, read at one entry over the extended reals.

  For an M × K matrix l and an N × K matrix r, contracted on the last axis of both, entry (i, j) of the product is
  Σₖ l(i, k) · r(j, k): at output entry (i, j) and contraction position k the left operand is read at (i, k) — the
  output's row on axis 0, the contraction position on axis 1 — and the right operand at (j, k) — the output's column
  on ITS axis 0, the contraction position on axis 1. The contraction has one axis of extent K, so the sum over its index
  set is the sum over k < K. This holds for every M, K, N, for a product accumulated into a zero accumulator.
-/
import Idealize.ShloMosaic.PureOps.Ideal.Laws
import Idealize.ShloMosaic.Lib.ValueIdx

noncomputable section

namespace Cert.LibDotNT

open Idealize.ShloMosaic Idealize.ShloMosaic.ValueIdx

variable (M K N : Nat)

/-- Axis 0 of the left operand's index is the output's row. -/
theorem lhs_nt_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from
      List.mem_singleton.mpr rfl)]
  rfl

/-- Axis 1 of the left operand's index is the contraction position. -/
theorem lhs_nt_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- Axis 0 of the right operand's index is the output's column. -/
theorem rhs_nt_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from
      List.mem_singleton.mpr rfl)]
  rfl

/-- Axis 1 of the right operand's index is the contraction position. -/
theorem rhs_nt_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- At output entry (i, j) and contraction position k the left operand is read at (i, k). -/
theorem lhsIdx_nt (i : Fin M) (j : Fin N) (k : Fin K) :
    (DotDims.transposedRhs M K N).lhsIdx (ix2 i j) ((contrEquiv1 (DotDims.transposedRhs M K N) K rfl rfl).symm k) = ix2 i k :=
  funext fun a => Fin.ext (by
    have hk := contrEquiv1_symm_val (DotDims.transposedRhs M K N) K rfl rfl k
    match a with
    | ⟨0, _⟩ => exact lhs_nt_0 M K N _ _
    | ⟨1, _⟩ => exact (lhs_nt_1 M K N _ _).trans hk)

/-- At output entry (i, j) and contraction position k the right operand is read at (j, k). -/
theorem rhsIdx_nt (i : Fin M) (j : Fin N) (k : Fin K) :
    (DotDims.transposedRhs M K N).rhsIdx (ix2 i j) ((contrEquiv1 (DotDims.transposedRhs M K N) K rfl rfl).symm k) = ix2 j k :=
  funext fun a => Fin.ext (by
    have hk := contrEquiv1_symm_val (DotDims.transposedRhs M K N) K rfl rfl k
    match a with
    | ⟨0, _⟩ => exact rhs_nt_0 M K N _ _
    | ⟨1, _⟩ => exact (rhs_nt_1 M K N _ _).trans hk)

/-- Entry (i, j) of a kernel's product with a transposed right operand, into a zero accumulator: Σₖ l(i, k) · r(j, k). -/
theorem mm_nt {φ₁ φ₂ : FTy} (l : FVec Ideal ⟨2, ![M, K]⟩ φ₁) (r : FVec Ideal ⟨2, ![N, K]⟩ φ₂)
    (i : Fin M) (j : Fin N) :
    matmul (DotDims.transposedRhs M K N) none l r (constant (F := Ideal) ⟨2, ![M, N]⟩ .f32 0x00000000#32) (ix2 i j)
      = ∑ k : Fin K, l (ix2 i k) * r (ix2 j k) := by
  refine (Ideal.matmul_constant_zero_apply (DotDims.transposedRhs M K N) none l r _).trans ?_
  rw [← Equiv.sum_comp (contrEquiv1 (DotDims.transposedRhs M K N) K rfl rfl).symm]
  refine Finset.sum_congr rfl fun k _ => ?_
  rw [lhsIdx_nt, rhsIdx_nt]

end Cert.LibDotNT

end
-- ==== Proof.LibColumn.lean ====
/-
  A column kept after a sum over the last axis, read at an index.

  A length-a vector viewed as an a × 1 column reads, at (i, 0), the vector at i; an a × 1 column repeated along
  b columns reads, at (i, j), the column at (i, 0), whatever j. Together they say that a row total broadcast
  back over its row is that total at every column.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, q)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KernelPayloads.lean ====
/-
  What one block of the expanded program computes, entry by entry.

  A block holds 512 samples x0(r, ·), the 1000 centres x1(k, ·), the centres' squared norms x2(0, k) and the 512
  labels x3(r, 0). Its distance entry at (r, k) is Σ_d x0(r, d)² + x2(0, k) − 2·Σ_d x0(r, d)·x1(k, d): the row
  total of the squares is kept as a column and repeated along the row, the norms' row is repeated down the
  columns, and the product of the samples with the transposed centres is a sum over the 128 coordinates. The
  indicator entry at (r, k) compares column k's own number with sample r's label (and with the bound 1000, which
  every column meets). The logits are −½ times the distance, the margin logits those times 1 + 1·indicator, and
  the block's total — the indicator-weighted distances summed along each row and then down the rows — is kept in
  lane 0 of 128 lanes, the other lanes zero.
-/
import proofs.«409873_j38113539784899_3_alg».proof.Proof.Gen.KernelIdeal.Skeleton
import proofs.«409873_j38113539784899_3_alg».proof.Proof.Spec
import proofs.«409873_j38113539784899_3_alg».proof.Proof.LibDotNT
import proofs.«409873_j38113539784899_3_alg».proof.Proof.LibColumn
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.ValueIdx

/-! ## Sums along an axis -/

/-- A sum over the 128 columns of a 512 × 128 block, at row r. -/
theorem sum_over_coords (src : FVec Ideal S512x128 .f32) (acc : BitVec 32) (h : S512x128.Reduces [1] S512)
    (hφ : FKind.Formats .f32) (hacc : acc = FKind.add.neutral .f32 hφ) (r : Fin 512) :
    multiReduction .add [1] S512 src acc h hφ hacc (ix1 r) = ∑ d : Fin 128, src (ix2 r d) :=
  (Ideal.multiReduction_add_single src acc h hφ hacc (ix1 r)).trans
    (Finset.sum_congr rfl fun d _ => congrArg src (funext fun a => Fin.ext (by
      match a with
      | ⟨0, _⟩ => rfl
      | ⟨1, _⟩ => rfl)))

/-- A sum over the 1000 columns of a 512 × 1000 block, at row r. -/
theorem sum_over_classes (src : FVec Ideal S512x1000 .f32) (acc : BitVec 32) (h : S512x1000.Reduces [1] S512)
    (hφ : FKind.Formats .f32) (hacc : acc = FKind.add.neutral .f32 hφ) (r : Fin 512) :
    multiReduction .add [1] S512 src acc h hφ hacc (ix1 r) = ∑ k : Fin 1000, src (ix2 r k) :=
  (Ideal.multiReduction_add_single src acc h hφ hacc (ix1 r)).trans
    (Finset.sum_congr rfl fun k _ => congrArg src (funext fun a => Fin.ext (by
      match a with
      | ⟨0, _⟩ => rfl
      | ⟨1, _⟩ => rfl)))

/-- A sum down the 512 rows of a 512 × 1 column. -/
theorem sum_over_rows (src : FVec Ideal S512x1 .f32) (acc : BitVec 32) (h : S512x1.Reduces [0] S1)
    (hφ : FKind.Formats .f32) (hacc : acc = FKind.add.neutral .f32 hφ) (u : Fin 1) :
    multiReduction .add [0] S1 src acc h hφ hacc (ix1 u) = ∑ r : Fin 512, src (ix2 r (0 : Fin 1)) :=
  (Ideal.multiReduction_add_single src acc h hφ hacc (ix1 u)).trans
    (Finset.sum_congr rfl fun r _ => congrArg src (funext fun a => Fin.ext (by
      have hu : u.val = 0 := by omega
      match a with
      | ⟨0, _⟩ => rfl
      | ⟨1, _⟩ => exact hu)))

/-! ## The product with the transposed centres -/

/-- Entry (r, k) of the samples' product with the transposed centres: Σ_d l(r, d)·c(k, d). -/
theorem cross_apply (l : FVec Ideal S512x128 .bf16) (cc : FVec Ideal S1000x128 .bf16) (r : Fin 512) (k : Fin 1000) :
    matmul dot_S512x128_S1000x128_S512x1000_1_1_0_0_n_n none l cc (constant (F := Ideal) S512x1000 .f32 0x00000000#32) (ix2 r k)
      = ∑ d : Fin 128, l (ix2 r d) * cc (ix2 k d) :=
  Cert.LibDotNT.mm_nt 512 128 1000 l cc r k

/-! ## The distance entry -/

theorem dist_apply (x0 : FVec Ideal S512x128 .f32) (x1 : FVec Ideal S1000x128 .bf16) (x2 : FVec Ideal S1x1000 .f32)
    (r : Fin 512) (k : Fin 1000) :
    k0_pay3 (F := Ideal) x0 x1 x2 (ix2 r k)
      = ((∑ d : Fin 128, x0 (ix2 r d) * x0 (ix2 r d)) + x2 (ix2 (0 : Fin 1) k))
        - Cert.CentreLoss.wTwo * ∑ d : Fin 128, x0 (ix2 r d) * x1 (ix2 k d) := by
  unfold k0_pay3
  show (broadcastTo S512x1000 (shapeCast S512x1 (multiReduction .add [1] S512 (mulf x0 x0) 0x00000000#32 reduces_S512x128_S512 (.inl rfl) rfl)
          shapeCasts_S512_S512x1) broadcasts_S512x1_S512x1000 (ix2 r k)
        + broadcastTo S512x1000 (shapeCast S1x1000 x2 shapeCasts_S1x1000_S1x1000) broadcasts_S1x1000_S512x1000 (ix2 r k))
      - Ideal.ofBits .f32 0x40000000#32
        * matmul dot_S512x128_S1000x128_S512x1000_1_1_0_0_n_n none (truncf .bf16 x0 bitsLt_bf16_f32)
            (shapeCast S1000x128 x1 shapeCasts_S1000x128_S1000x128) (constant (F := Ideal) S512x1000 .f32 0x00000000#32) (ix2 r k) = _
  refine congrArg₂ (· - ·) (congrArg₂ (· + ·) ?_ ?_) (congrArg (Ideal.ofBits .f32 0x40000000#32 * ·) ?_)
  · refine (Cert.LibColumn.broadcastTo_a1_ab_apply _ _ r k).trans ?_
    refine (Cert.LibColumn.shapeCast_a_a1_apply _ _ r 0).trans ?_
    exact sum_over_coords _ _ _ _ _ r
  · refine (broadcastTo_1b_ab_apply _ _ r k).trans ?_
    rw [shapeCast_self]
  · rw [shapeCast_self]
    exact cross_apply _ _ r k

/-! ## The indicator entry -/

/-- Every column's number is below the bound 1000. -/
theorem below_bound : ∀ k : Fin 1000, IntOp.cmpi .slt (BitVec.ofNat 32 k.val) 1000#32 = 1#1 := by decide +kernel

/-- The word the indicator is converted from: 1 when the label is the column's number, 0 otherwise. -/
theorem indicator_word (w kk : BitVec 32) (hk : IntOp.cmpi .slt kk 1000#32 = 1#1) :
    (FloatOps.sitofp (F := Ideal) .f32 ((IntOp.andi (IntOp.cmpi .eq kk w) (IntOp.cmpi .slt kk 1000#32)).setWidth 32) : EReal)
      = if w = kk then 1 else 0 := by
  rw [hk]
  by_cases h : w = kk
  · subst h
    rw [if_pos rfl]
    have e : IntOp.cmpi .eq w w = 1#1 := by simp [IntOp.cmpi]
    rw [e]
    show (((((IntOp.andi 1#1 1#1).setWidth 32 : BitVec 32).toInt : ℤ) : ℝ) : EReal) = 1
    have e2 : ((IntOp.andi 1#1 1#1).setWidth 32 : BitVec 32).toInt = 1 := by decide
    rw [e2]; norm_num
  · rw [if_neg h]
    have e : IntOp.cmpi .eq kk w = 0#1 := by
      have : (kk == w) = false := by simpa using fun hh : kk = w => h hh.symm
      simp [IntOp.cmpi, this]
    rw [e]
    show (((((IntOp.andi 0#1 1#1).setWidth 32 : BitVec 32).toInt : ℤ) : ℝ) : EReal) = 0
    have e2 : ((IntOp.andi 0#1 1#1).setWidth 32 : BitVec 32).toInt = 0 := by decide
    rw [e2]; norm_num

theorem indicator_apply (x3 : IVec S512x1 32) (r : Fin 512) (k : Fin 1000) :
    k0_pay4 (F := Ideal) x3 (ix2 r k) = if x3 (ix2 r (0 : Fin 1)) = BitVec.ofNat 32 k.val then 1 else 0 := by
  unfold k0_pay4
  have hi : iota .tc S512x1000 32 [1] iota_S512x1000_d1_w32 (ix2 r k) = BitVec.ofNat 32 k.val :=
    iota_single_apply .tc S512x1000 32 1 _ (ix2 r k)
  have hl : broadcastTo S512x1000 (shapeCast S512x1 x3 shapeCasts_S512x1_S512x1) broadcasts_S512x1_S512x1000 (ix2 r k)
      = x3 (ix2 r (0 : Fin 1)) := by
    refine (Cert.LibColumn.broadcastTo_a1_ab_apply _ _ r k).trans ?_
    rw [shapeCast_self]
  show (FloatOps.sitofp (F := Ideal) .f32 ((IntOp.andi
      (IntOp.cmpi .eq (iota .tc S512x1000 32 [1] iota_S512x1000_d1_w32 (ix2 r k))
        (broadcastTo S512x1000 (shapeCast S512x1 x3 shapeCasts_S512x1_S512x1) broadcasts_S512x1_S512x1000 (ix2 r k)))
      (IntOp.cmpi .slt (iota .tc S512x1000 32 [1] iota_S512x1000_d1_w32 (ix2 r k)) 1000#32)).setWidth 32) : EReal) = _
  rw [hi, hl]
  exact indicator_word _ _ (below_bound k)

/-! ## The logits and the margin logits -/

theorem logits_apply (v15 : FVec Ideal S512x1000 .f32) (w : Ideal .f32) (j : S512x1000.Idx) :
    k0_pay1 (F := Ideal) v15 w j = w * v15 j := rfl

theorem margin_apply (v15 v25 : FVec Ideal S512x1000 .f32) (w : Ideal .f32) (j : S512x1000.Idx) :
    k0_pay2 (F := Ideal) v15 v25 w j = (w * v15 j) * (Cert.CentreLoss.wOne + Cert.CentreLoss.wOne * v25 j) := rfl

/-! ## The block's total, in lane 0 -/

/-- Lane l's own number is 0 exactly for the first lane. -/
theorem first_lane : ∀ l : Fin 128, IntOp.cmpi .eq (BitVec.ofNat 32 l.val) 0#32 = if l.val = 0 then 1#1 else 0#1 := by decide +kernel

theorem total_apply (x0 : FVec Ideal S512x128 .f32) (x1 : FVec Ideal S1000x128 .bf16) (x2 : FVec Ideal S1x1000 .f32)
    (x3 : IVec S512x1 32) (l : Fin 128) :
    k0_pay5 (F := Ideal) x0 x1 x2 x3 (ix2 (0 : Fin 1) l)
      = if l.val = 0 then ∑ r : Fin 512, ∑ k : Fin 1000,
          k0_pay3 (F := Ideal) x0 x1 x2 (ix2 r k) * k0_pay4 (F := Ideal) x3 (ix2 r k) else 0 := by
  unfold k0_pay5
  have hi : iota .tc S1x128 32 [1] iota_S1x128_d1_w32 (ix2 (0 : Fin 1) l) = BitVec.ofNat 32 l.val :=
    iota_single_apply .tc S1x128 32 1 _ (ix2 (0 : Fin 1) l)
  refine (select_apply _ _ _ _).trans ?_
  show Scalar.select (IntOp.cmpi .eq (iota .tc S1x128 32 [1] iota_S1x128_d1_w32 (ix2 (0 : Fin 1) l)) 0#32) _ _ = _
  rw [hi, first_lane l]
  by_cases h0 : l.val = 0
  · rw [if_pos h0, if_pos h0, select_one]
    refine (Cert.LibColumn.broadcastTo_a1_ab_apply (a := 1) _ _ 0 l).trans ?_
    rw [shapeCast_self]
    refine (shapeCast_a_1a_apply _ _ 0 0).trans ?_
    refine (sum_over_rows _ _ _ _ _ 0).trans ?_
    refine Finset.sum_congr rfl fun r _ => ?_
    refine (Cert.LibColumn.shapeCast_a_a1_apply _ _ r 0).trans ?_
    exact sum_over_classes _ _ _ _ _ r
  · rw [if_neg h0, if_neg h0, select_zero]
    show Ideal.ofBits .f32 0x00000000#32 = 0
    exact Ideal.ofBits_zero_f32

end Cert.KernelIdeal.Block

end
-- ==== Proof.KernelValue.lean ====
/-
  The expanded program's three results as whole-array formulas.

  The program cuts the 2048 samples into four blocks of 512 rows. At block t the samples' window holds rows
  512t … 512t + 511 of the samples, the labels' window the same rows of the labels (laid out as a column), the
  centres' and the norms' windows the whole arrays; the two 2048 × 1000 results receive rows 512t … 512t + 511
  and the row of 512 lanes receives lanes 128t … 128t + 127. Before the blocks run, the centres' squared norms
  Σ_d c(k, d)² are formed once and laid out as a row, and the labels as a column; after them the 512 lanes are added
  and scaled by the word 1/4096. Every entry of the three results is therefore the formula `expanded…` of
  the three inputs: the four blocks tile each result, and what block t writes is block t of that formula.
-/
import proofs.«409873_j38113539784899_3_alg».proof.Proof.Gen.KernelIdeal.Frame
import proofs.«409873_j38113539784899_3_alg».proof.Proof.KernelPayloads
import Idealize.ShloMosaic.Lib.Pipeline.Value
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.CentreLoss
open Idealize.ShloMosaic.Pipeline (Dat)

variable (m : (ℓ : Loc nD τ sig) → Buf (Elt Ideal) ℓ) (ρ : Dev nD → PrngReg)

/-- The three inputs as launched. -/
abbrev feat (c : Dev nD) : FVec Ideal S2048x128 .f32 := m ((c : Thread nD τ).loc main_arg0)
abbrev labels (c : Dev nD) : IVec S2048 32 := m ((c : Thread nD τ).loc main_arg1)
abbrev centres (c : Dev nD) : FVec Ideal S1000x128 .f32 := m ((c : Thread nD τ).loc main_arg2)

/-- A grid point as a block number below 4. -/
def blockNo (t : Fin cfg0.N) : Fin 4 := ⟨t.val, by have h : t.val < grid0.N := t.isLt; rw [N_0] at h; exact h⟩

theorem hz : (![0, 0] : Fin 2 → Nat) = fun _ => 0 := funext fun a => by fin_cases a <;> rfl

/-! ## The arrays the region finds -/

/-- The centres, narrowed in format: the same numbers. -/
theorem centres_staged (c : Dev nD) : (V m c main_v4 : S1000x128.Idx → EReal) = centres m c := by
  show StableHlo.after hostOps0 (fun b => m (c, b)) (Proc.devRef .tc main_v4) = _
  after_results
  rfl

/-- The centres' squared norms, laid out as a row. -/
theorem norms_staged (c : Dev nD) : (V m c main_v3 : S1x1000.Idx → EReal)
    = shapeCast S1x1000 (Host.reduceAdd (F := Ideal) (mulf (centres m c) (centres m c)) (constant (F := Ideal) S_ .f32 0x00000000#32)
        reducesTo_S1000x128_S1000_d1 h_S_) shapeCasts_S1000_S1x1000 := by
  show StableHlo.after hostOps0 (fun b => m (c, b)) (Proc.devRef .tc main_v3) = _
  after_results
  rfl

/-- The labels, laid out as a column. -/
theorem labels_staged (c : Dev nD) : (V m c main_v0 : S2048x1.Idx → BitVec 32)
    = shapeCast S2048x1 (labels m c) shapeCasts_S2048_S2048x1 := by
  show StableHlo.after hostOps0 (fun b => m (c, b)) (Proc.devRef .tc main_v0) = _
  after_results
  rfl

theorem norms_apply (c : Dev nD) (k : Fin 1000) :
    (V m c main_v3 : S1x1000.Idx → EReal) (ix2 (0 : Fin 1) k) = ∑ d : Fin 128, centres m c (ix2 k d) * centres m c (ix2 k d) := by
  rw [norms_staged]
  refine (shapeCast_a_1a_apply _ _ 0 k).trans ?_
  simp only [Host.reduceAdd, Ideal.hostReduceAdd_def]
  rw [Ideal.hostReduceAdd_single reducesTo_S1000x128_S1000_d1 (by decide)]
  show Ideal.ofBits .f32 0x00000000#32 + _ = _
  rw [Ideal.ofBits_zero_f32, zero_add]
  refine Finset.sum_congr rfl fun d _ => ?_
  show mulf (centres m c) (centres m c) _ = mulf (centres m c) (centres m c) (ix2 k d)
  exact congrArg (mulf (centres m c) (centres m c)) (funext fun a => Fin.ext (by match a with | ⟨0, _⟩ => rfl | ⟨1, _⟩ => rfl))

theorem labels_apply (c : Dev nD) (i : Fin 2048) :
    (V m c main_v0 : S2048x1.Idx → BitVec 32) (ix2 i (0 : Fin 1)) = labels m c (ix1 i) := by
  rw [labels_staged]
  exact Cert.LibColumn.shapeCast_a_a1_apply _ _ i 0

/-! ## The windows' blocks -/

/-- Where each window's block sits, decided over the four points. -/
theorem block_positions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = 0 ∧ win0_6.index t (1 : Fin 2) = t.val :=
  (by decide +kernel : ∀ t : Fin grid0.N, _)

/-- The four input blocks at a point, each at its literal type. -/
abbrev featBlk (c : Dev nD) (t : Fin cfg0.N) : FVec Ideal S512x128 .f32 := iblk m c 0 t
abbrev cenBlk (c : Dev nD) (t : Fin cfg0.N) : FVec Ideal S1000x128 .bf16 := iblk m c 1 t
abbrev normBlk (c : Dev nD) (t : Fin cfg0.N) : FVec Ideal S1x1000 .f32 := iblk m c 2 t
abbrev labBlk (c : Dev nD) (t : Fin cfg0.N) : IVec S512x1 32 := iblk m c 3 t

theorem featBlk_apply (c : Dev nD) (t : Fin cfg0.N) (r : Fin 512) (d : Fin 128) :
    featBlk m c t (ix2 r d) = feat m c (ix2 (sampleOf (blockNo t) r) d) := by
  show V m c main_arg0 (((cfg0.win 0).blk t).view.emb (ix2 r d)) = _
  rw [V_main_arg0]
  refine congrArg (feat m c) (funext fun a => Fin.ext ?_)
  obtain ⟨e0, e1, -⟩ := block_positions t
  match a with
  | ⟨0, _⟩ => show win0_0.index t (0 : Fin 2) * 512 + 1 * r.val = 512 * t.val + r.val; omega
  | ⟨1, _⟩ => show win0_0.index t (1 : Fin 2) * 128 + 1 * d.val = d.val; omega

theorem cenBlk_apply (c : Dev nD) (t : Fin cfg0.N) (k : Fin 1000) (d : Fin 128) :
    cenBlk m c t (ix2 k d) = centres m c (ix2 k d) := by
  show (V m c main_v4 : S1000x128.Idx → EReal) (((cfg0.win 1).blk t).view.emb (ix2 k d)) = _
  rw [centres_staged]
  refine congrArg (centres m c) (funext fun a => Fin.ext ?_)
  obtain ⟨-, -, e2, e3, -⟩ := block_positions t
  match a with
  | ⟨0, _⟩ => show win0_1.index t (0 : Fin 2) * 1000 + 1 * k.val = k.val; omega
  | ⟨1, _⟩ => show win0_1.index t (1 : Fin 2) * 128 + 1 * d.val = d.val; omega

theorem normBlk_apply (c : Dev nD) (t : Fin cfg0.N) (k : Fin 1000) :
    normBlk m c t (ix2 (0 : Fin 1) k) = ∑ d : Fin 128, centres m c (ix2 k d) * centres m c (ix2 k d) := by
  have e : ((cfg0.win 2).blk t).view.emb (ix2 (0 : Fin 1) k) = ix2 (0 : Fin 1) k := by
    refine funext fun a => Fin.ext ?_
    obtain ⟨-, -, -, -, e4, e5, -⟩ := block_positions t
    match a with
    | ⟨0, _⟩ => show win0_2.index t (0 : Fin 2) * 1 + 1 * 0 = 0; omega
    | ⟨1, _⟩ => show win0_2.index t (1 : Fin 2) * 1000 + 1 * k.val = k.val; omega
  show (V m c main_v3 : S1x1000.Idx → EReal) (((cfg0.win 2).blk t).view.emb (ix2 (0 : Fin 1) k)) = _
  rw [e]
  exact norms_apply m c k

theorem labBlk_apply (c : Dev nD) (t : Fin cfg0.N) (r : Fin 512) :
    labBlk m c t (ix2 r (0 : Fin 1)) = labels m c (ix1 (sampleOf (blockNo t) r)) := by
  have e : ((cfg0.win 3).blk t).view.emb (ix2 r (0 : Fin 1)) = ix2 (sampleOf (blockNo t) r) (0 : Fin 1) := by
    refine funext fun a => Fin.ext ?_
    obtain ⟨-, -, -, -, -, -, e6, e7, -⟩ := block_positions t
    match a with
    | ⟨0, _⟩ => show win0_3.index t (0 : Fin 2) * 512 + 1 * r.val = 512 * t.val + r.val; omega
    | ⟨1, _⟩ => show win0_3.index t (1 : Fin 2) * 1 + 1 * 0 = 0; omega
  show (V m c main_v0 : S2048x1.Idx → BitVec 32) (((cfg0.win 3).blk t).view.emb (ix2 r (0 : Fin 1))) = _
  rw [e]
  exact labels_apply m c _

/-- The block's distance and indicator entries are the formulas' at the block's rows. -/
theorem dist_entry (c : Dev nD) (t : Fin cfg0.N) (r : Fin 512) (k : Fin 1000) :
    k0_pay3 (F := Ideal) (featBlk m c t) (cenBlk m c t) (normBlk m c t) (ix2 r k)
      = sqDistExpanded (feat m c) (centres m c) (sampleOf (blockNo t) r) k := by
  rw [Cert.KernelIdeal.Block.dist_apply]
  simp only [featBlk_apply, cenBlk_apply, normBlk_apply]
  rfl

theorem indicator_entry (c : Dev nD) (t : Fin cfg0.N) (r : Fin 512) (k : Fin 1000) :
    k0_pay4 (F := Ideal) (labBlk m c t) (ix2 r k) = ownClass (labels m c) (sampleOf (blockNo t) r) k := by
  rw [Cert.KernelIdeal.Block.indicator_apply, labBlk_apply]
  rfl

/-! ## What a point writes back -/

/-- Where entry (r, k) of block t of a 2048 × 1000 result sits. -/
theorem logits_pos (t : Fin cfg0.N) (r : Fin 512) (k : Fin 1000) :
    ((cfg0.win 4).blk t).view.emb (ix2 r k) = ix2 (sampleOf (blockNo t) r) k := by
  refine funext fun a => Fin.ext ?_
  obtain ⟨-, -, -, -, -, -, -, -, e8, e9, -⟩ := block_positions t
  match a with
  | ⟨0, _⟩ => show win0_4.index t (0 : Fin 2) * 512 + 1 * r.val = 512 * t.val + r.val; omega
  | ⟨1, _⟩ => show win0_4.index t (1 : Fin 2) * 1000 + 1 * k.val = k.val; omega

theorem margin_pos (t : Fin cfg0.N) (r : Fin 512) (k : Fin 1000) :
    ((cfg0.win 5).blk t).view.emb (ix2 r k) = ix2 (sampleOf (blockNo t) r) k := by
  refine funext fun a => Fin.ext ?_
  obtain ⟨-, -, -, -, -, -, -, -, -, -, e10, e11, -⟩ := block_positions t
  match a with
  | ⟨0, _⟩ => show win0_5.index t (0 : Fin 2) * 512 + 1 * r.val = 512 * t.val + r.val; omega
  | ⟨1, _⟩ => show win0_5.index t (1 : Fin 2) * 1000 + 1 * k.val = k.val; omega

/-- Where lane l of block t's 128 lanes sits among the 512. -/
theorem lanes_pos (t : Fin cfg0.N) (l : Fin 128) :
    ((cfg0.win 6).blk t).view.emb (ix2 (0 : Fin 1) l)
      = ix2 (0 : Fin 1) (⟨128 * t.val + l.val, by have := (blockNo t).isLt; have : (blockNo t).val = t.val := rfl; omega⟩ : Fin 512) := by
  refine funext fun a => Fin.ext ?_
  obtain ⟨-, -, -, -, -, -, -, -, -, -, -, -, e12, e13⟩ := block_positions t
  match a with
  | ⟨0, _⟩ => show win0_6.index t (0 : Fin 2) * 1 + 1 * 0 = 0; omega
  | ⟨1, _⟩ => show win0_6.index t (1 : Fin 2) * 128 + 1 * l.val = 128 * t.val + l.val; omega

theorem logits_flushed (c : Dev nD) (t : Fin cfg0.N) :
    (dats m 0 c).flushed 4 t = ((cfg0.win 4).blk t).view.read (Elt Ideal) (expandedLogits (feat m c) (centres m c)) := by
  show (cfg0.win 4).cut (grid0.coords t) ((dats m 0 c).after 4 t) = _
  rw [after0_4]
  unfold out0_4
  rw [View.canon_unit_zero hz]
  simp only [View.ld_unit_zero (S := S512x128) hz, View.ld_unit_zero (S := S1000x128) hz, View.ld_unit_zero (S := S1x1000) hz]
  funext j
  obtain ⟨r, k, rfl⟩ : ∃ (r : Fin 512) (k : Fin 1000), j = ix2 r k := ⟨j 0, j 1, eq_ix2 j⟩
  show k0_pay1 (F := Ideal) (k0_pay3 (F := Ideal) (featBlk m c t) (cenBlk m c t) (normBlk m c t)) (Ideal.ofBits .f32 0xBF000000#32) (ix2 r k)
    = expandedLogits (feat m c) (centres m c) (((cfg0.win 4).blk t).view.emb (ix2 r k))
  rw [logits_pos, Cert.KernelIdeal.Block.logits_apply, dist_entry]
  rfl

theorem margin_flushed (c : Dev nD) (t : Fin cfg0.N) :
    (dats m 0 c).flushed 5 t = ((cfg0.win 5).blk t).view.read (Elt Ideal) (expandedMargin (feat m c) (labels m c) (centres m c)) := by
  show (cfg0.win 5).cut (grid0.coords t) ((dats m 0 c).after 5 t) = _
  rw [after0_5]
  unfold out0_5
  rw [View.canon_unit_zero hz]
  simp only [View.ld_unit_zero (S := S512x128) hz, View.ld_unit_zero (S := S1000x128) hz, View.ld_unit_zero (S := S1x1000) hz,
    View.ld_unit_zero (S := S512x1) hz]
  funext j
  obtain ⟨r, k, rfl⟩ : ∃ (r : Fin 512) (k : Fin 1000), j = ix2 r k := ⟨j 0, j 1, eq_ix2 j⟩
  show k0_pay2 (F := Ideal) (k0_pay3 (F := Ideal) (featBlk m c t) (cenBlk m c t) (normBlk m c t)) (k0_pay4 (F := Ideal) (labBlk m c t))
      (Ideal.ofBits .f32 0xBF000000#32) (ix2 r k)
    = expandedMargin (feat m c) (labels m c) (centres m c) (((cfg0.win 5).blk t).view.emb (ix2 r k))
  rw [margin_pos, Cert.KernelIdeal.Block.margin_apply, dist_entry, indicator_entry]
  rfl

theorem lanes_flushed (c : Dev nD) (t : Fin cfg0.N) :
    (dats m 0 c).flushed 6 t = ((cfg0.win 6).blk t).view.read (Elt Ideal) (lanes (feat m c) (labels m c) (centres m c)) := by
  show (cfg0.win 6).cut (grid0.coords t) ((dats m 0 c).after 6 t) = _
  rw [after0_6]
  unfold out0_6
  rw [View.canon_unit_zero hz]
  simp only [View.ld_unit_zero (S := S512x128) hz, View.ld_unit_zero (S := S1000x128) hz, View.ld_unit_zero (S := S1x1000) hz,
    View.ld_unit_zero (S := S512x1) hz]
  funext j
  obtain ⟨u, l, rfl⟩ : ∃ (u : Fin 1) (l : Fin 128), j = ix2 u l := ⟨j 0, j 1, eq_ix2 j⟩
  obtain rfl : u = 0 := Subsingleton.elim _ _
  show k0_pay5 (F := Ideal) (featBlk m c t) (cenBlk m c t) (normBlk m c t) (labBlk m c t) (ix2 (0 : Fin 1) l)
    = lanes (feat m c) (labels m c) (centres m c) (((cfg0.win 6).blk t).view.emb (ix2 (0 : Fin 1) l))
  rw [lanes_pos, Cert.KernelIdeal.Block.total_apply]
  simp only [dist_entry, indicator_entry]
  unfold lanes
  have hl : l.val < 128 := l.isLt
  have hmod : (128 * t.val + l.val) % 128 = l.val := by omega
  have hdiv : (128 * t.val + l.val) / 128 = t.val := by omega
  show (if l.val = 0 then _ else 0) = if (128 * t.val + l.val) % 128 = 0 then blockTotal (feat m c) (labels m c) (centres m c) ⟨(128 * t.val + l.val) / 128, _⟩ else 0
  by_cases h0 : l.val = 0
  · rw [if_pos h0, if_pos (by omega)]
    have hb : (blockNo t).val = t.val := rfl
    have hb4 : (blockNo t).val < 4 := (blockNo t).isLt
    have eb : (⟨(128 * t.val + l.val) / 128, by omega⟩ : Fin 4) = blockNo t := Fin.ext hdiv
    rw [eb]
    rfl
  · rw [if_neg h0, if_neg (by omega)]

/-! ## The blocks tile the results -/

theorem mem_logits_blk (t : Fin cfg0.N) (i : S2048x1000.Idx) :
    i ∈ ((cfg0.win 4).blk t).view.set ↔ ∀ a : Fin 2, win0_4.index t a * S512x1000.size a ≤ (i a).val ∧ (i a).val < win0_4.index t a * S512x1000.size a + S512x1000.size a := by
  show i ∈ ((View.whole main_v5_0).slice (win0_4.rect t)).set ↔ _
  rw [View.set_slice_whole, Rect.mem_set_unit]
  exact Iff.rfl

theorem mem_margin_blk (t : Fin cfg0.N) (i : S2048x1000.Idx) :
    i ∈ ((cfg0.win 5).blk t).view.set ↔ ∀ a : Fin 2, win0_5.index t a * S512x1000.size a ≤ (i a).val ∧ (i a).val < win0_5.index t a * S512x1000.size a + S512x1000.size a := by
  show i ∈ ((View.whole main_v5_1).slice (win0_5.rect t)).set ↔ _
  rw [View.set_slice_whole, Rect.mem_set_unit]
  exact Iff.rfl

theorem mem_lanes_blk (t : Fin cfg0.N) (i : S1x512.Idx) :
    i ∈ ((cfg0.win 6).blk t).view.set ↔ ∀ a : Fin 2, win0_6.index t a * S1x128.size a ≤ (i a).val ∧ (i a).val < win0_6.index t a * S1x128.size a + S1x128.size a := by
  show i ∈ ((View.whole main_v5_2).slice (win0_6.rect t)).set ↔ _
  rw [View.set_slice_whole, Rect.mem_set_unit]
  exact Iff.rfl

/-- The point whose block holds a given row or lane. -/
def pointOf (n : Nat) (h : n < 4) : Fin cfg0.N := ⟨n, by show n < grid0.N; rw [N_0]; exact h⟩

theorem logits_cover (i : S2048x1000.Idx) : ∃ t : Fin cfg0.N, (cfg0.win 4).flush t = true ∧ i ∈ ((cfg0.win 4).blk t).view.set := by
  have h0 : (i 0).val < 2048 := (i 0).isLt
  have h1 : (i 1).val < 1000 := (i 1).isLt
  refine ⟨pointOf ((i 0).val / 512) (by omega), flush0_4 _, ?_⟩
  rw [mem_logits_blk]
  obtain ⟨-, -, -, -, -, -, -, -, e8, e9, -⟩ := block_positions (pointOf ((i 0).val / 512) (by omega))
  have ev : (pointOf ((i 0).val / 512) (by omega)).val = (i 0).val / 512 := rfl
  intro a
  match a with
  | ⟨0, _⟩ => show win0_4.index _ (0 : Fin 2) * 512 ≤ (i 0).val ∧ (i 0).val < win0_4.index _ (0 : Fin 2) * 512 + 512; omega
  | ⟨1, _⟩ => show win0_4.index _ (1 : Fin 2) * 1000 ≤ (i 1).val ∧ (i 1).val < win0_4.index _ (1 : Fin 2) * 1000 + 1000; omega

theorem margin_cover (i : S2048x1000.Idx) : ∃ t : Fin cfg0.N, (cfg0.win 5).flush t = true ∧ i ∈ ((cfg0.win 5).blk t).view.set := by
  have h0 : (i 0).val < 2048 := (i 0).isLt
  have h1 : (i 1).val < 1000 := (i 1).isLt
  refine ⟨pointOf ((i 0).val / 512) (by omega), flush0_5 _, ?_⟩
  rw [mem_margin_blk]
  obtain ⟨-, -, -, -, -, -, -, -, -, -, e10, e11, -⟩ := block_positions (pointOf ((i 0).val / 512) (by omega))
  have ev : (pointOf ((i 0).val / 512) (by omega)).val = (i 0).val / 512 := rfl
  intro a
  match a with
  | ⟨0, _⟩ => show win0_5.index _ (0 : Fin 2) * 512 ≤ (i 0).val ∧ (i 0).val < win0_5.index _ (0 : Fin 2) * 512 + 512; omega
  | ⟨1, _⟩ => show win0_5.index _ (1 : Fin 2) * 1000 ≤ (i 1).val ∧ (i 1).val < win0_5.index _ (1 : Fin 2) * 1000 + 1000; omega

theorem lanes_cover (i : S1x512.Idx) : ∃ t : Fin cfg0.N, (cfg0.win 6).flush t = true ∧ i ∈ ((cfg0.win 6).blk t).view.set := by
  have h0 : (i 0).val < 1 := (i 0).isLt
  have h1 : (i 1).val < 512 := (i 1).isLt
  refine ⟨pointOf ((i 1).val / 128) (by omega), flush0_6 _, ?_⟩
  rw [mem_lanes_blk]
  obtain ⟨-, -, -, -, -, -, -, -, -, -, -, -, e12, e13⟩ := block_positions (pointOf ((i 1).val / 128) (by omega))
  have ev : (pointOf ((i 1).val / 128) (by omega)).val = (i 1).val / 128 := rfl
  intro a
  match a with
  | ⟨0, _⟩ => show win0_6.index _ (0 : Fin 2) * 1 ≤ (i 0).val ∧ (i 0).val < win0_6.index _ (0 : Fin 2) * 1 + 1; omega
  | ⟨1, _⟩ => show win0_6.index _ (1 : Fin 2) * 128 ≤ (i 1).val ∧ (i 1).val < win0_6.index _ (1 : Fin 2) * 128 + 128; omega

/-! ## The arrays after the blocks -/

theorem logits_final (c : Dev nD) : (dats m 0 c).arrAt 4 cfg0.N = expandedLogits (feat m c) (centres m c) :=
  (dats m 0 c).arrAt_eq_of_cover 4 (expandedLogits (feat m c) (centres m c)) (fun t _ => logits_flushed m c t) logits_cover

theorem margin_final (c : Dev nD) : (dats m 0 c).arrAt 5 cfg0.N = expandedMargin (feat m c) (labels m c) (centres m c) :=
  (dats m 0 c).arrAt_eq_of_cover 5 (expandedMargin (feat m c) (labels m c) (centres m c)) (fun t _ => margin_flushed m c t) margin_cover

theorem lanes_final (c : Dev nD) : (dats m 0 c).arrAt 6 cfg0.N = lanes (feat m c) (labels m c) (centres m c) :=
  (dats m 0 c).arrAt_eq_of_cover 6 (lanes (feat m c) (labels m c) (centres m c)) (fun t _ => lanes_flushed m c t) lanes_cover

/-! ## The lanes added and scaled -/

theorem likelihood_final (c : Dev nD) :
    Pipeline.afterTail₀ cfgs (dats m) 0 (V0 m) [hostOps1] c main_v7 = expandedLikelihood (feat m c) (labels m c) (centres m c) := by
  unfold Pipeline.afterTail₀
  show StableHlo.after hostOps1 _ (Proc.devRef .tc main_v7) = _
  after_results
  rw [show Pipeline.withArrays (cfgs 0).spec c (V0 m c) (fun w => (dats m 0 c).arrAt w (cfgs 0).N) (Proc.devRef .tc main_v5_2)
      = lanes (feat m c) (labels m c) (centres m c) from
    (Pipeline.withArrays_arr spec0 launch0.win.arr_inj c _ _ 6).trans (lanes_final m c)]
  funext j
  show (Host.reduceAdd (F := Ideal) (lanes (feat m c) (labels m c) (centres m c)) (constant (F := Ideal) S_ .f32 0x00000000#32)
      reducesTo_S1x512_S_d0_1 h_S_) j * Ideal.ofBits .f32 0x39800000#32 = _
  simp only [Host.reduceAdd, Ideal.hostReduceAdd_def]
  rw [Ideal.hostReduceAdd_total reducesTo_S1x512_S_d0_1 (fun b => b.elim0)]
  show (Ideal.ofBits .f32 0x00000000#32 + _) * _ = _
  rw [Ideal.ofBits_zero_f32, zero_add]
  rfl

/-! ## The run -/

/-- Every run of the expanded program ends with its three results at the formulas of the inputs, the inputs unchanged. -/
theorem run : θ_run defs (onTc (τ := τ) (main (F := Ideal))) ⟨m, fun _ => 0, ρ⟩ fun r => ∀ c : Dev nD,
      r.2.mem ((c.tc : Thread nD τ).loc main_v5_0) = expandedLogits (feat m c) (centres m c)
      ∧ r.2.mem ((c.tc : Thread nD τ).loc main_v5_1) = expandedMargin (feat m c) (labels m c) (centres m c)
      ∧ r.2.mem ((c.tc : Thread nD τ).loc main_v7) = expandedLikelihood (feat m c) (labels m c) (centres m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).1 4).trans (logits_final m c),
      ((h c).1 5).trans (margin_final m c),
      ((h c).2 main_v7 (Pipeline.mem_restRefs_of main_v7 (by decide) (by decide))).trans (likelihood_final m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Whole

end
-- ==== Proof.lean ====
/-
  The centre loss computed two ways gives the same three results.

  One program sums the squared differences of every sample and every class centre as written, doubles a sample's own
  class in the margin logits through a one-hot row, and averages the squared distances of the samples to their own
  centres, gathered by label. The other expands the square into norms and an inner product, forms the margin through
  an indicator, picks each sample's own distance out of its row with the same indicator, and adds the picked
  distances block by block. For finite samples and centres and labels that name a class, 0 ≤ ℓ < 1000, the two
  agree entry by entry over the extended reals: the expansion of the square is an identity of finite sums of reals,
  the margin factors differ only in the order of a product and a sum, and the indicator picks exactly the gathered
  row. The frames of the three programs are the generated ones; the idealization rewrote nothing.
-/
import proofs.«409873_j38113539784899_3_alg».proof.Defs
import proofs.«409873_j38113539784899_3_alg».proof.Proof.Gen.Kernel
import proofs.«409873_j38113539784899_3_alg».proof.Proof.Gen.Kernel.Skeleton
import proofs.«409873_j38113539784899_3_alg».proof.Proof.Gen.Kernel.Launch
import proofs.«409873_j38113539784899_3_alg».proof.Proof.Gen.Kernel.Points
import proofs.«409873_j38113539784899_3_alg».proof.Proof.Gen.Kernel.Frame
import proofs.«409873_j38113539784899_3_alg».proof.Proof.Gen.KernelIdeal
import proofs.«409873_j38113539784899_3_alg».proof.Proof.Gen.KernelIdeal.Skeleton
import proofs.«409873_j38113539784899_3_alg».proof.Proof.Gen.KernelIdeal.Launch
import proofs.«409873_j38113539784899_3_alg».proof.Proof.Gen.KernelIdeal.Points
import proofs.«409873_j38113539784899_3_alg».proof.Proof.Gen.KernelIdeal.Frame
import proofs.«409873_j38113539784899_3_alg».proof.Proof.Gen.ReferenceIdeal
import proofs.«409873_j38113539784899_3_alg».proof.Proof.Gen.Pre_finite_inputs
import proofs.«409873_j38113539784899_3_alg».proof.Proof.Gen.ReferenceIdeal.Run
import proofs.«409873_j38113539784899_3_alg».proof.Proof.Gen.ReferenceIdeal.Read
import proofs.«409873_j38113539784899_3_alg».proof.Proof.PreFacts
import proofs.«409873_j38113539784899_3_alg».proof.Proof.RefLogits
import proofs.«409873_j38113539784899_3_alg».proof.Proof.RefLikelihood
import proofs.«409873_j38113539784899_3_alg».proof.Proof.Expansion
import proofs.«409873_j38113539784899_3_alg».proof.Proof.Regroup
import proofs.«409873_j38113539784899_3_alg».proof.Proof.KernelValue
import Idealize.ShloMosaic.Adequacy
import Idealize.ShloMosaic.Init

noncomputable section

namespace Cert.Proof

open Idealize.ShloMosaic Idealize.SL.Sem Cert.CentreLoss

/-- The word-level program runs and leaves its inputs alone. -/
theorem frame_words : Cert.frame_Kernel := fun m ρ _ => Cert.Kernel.Gen.frame m ρ

/-- So does the expanded program over the extended reals. -/
theorem frame_expanded : Cert.frame_KernelIdeal := fun m ρ _ => Cert.KernelIdeal.Gen.frame m ρ

/-- And the program that sums as written: its run, with the results dropped. -/
theorem frame_direct : Cert.frame_ReferenceIdeal := fun m ρ _ =>
  (θ_run Cert.ReferenceIdeal.defs _ _).mono (fun _ h c => (h c).2.2.2) (Cert.ReferenceIdeal.Value.run (F := Ideal) m ρ)

/-- From inputs that agree, finite and with labels naming a class, both programs end with the logits, the margin
    logits and the likelihood term `direct…` of those inputs: the expanded one through `expanded… = direct…`. -/
theorem same_results : Cert.algebraic_KernelIdeal_ReferenceIdeal := by
  intro m ρ m' ρ' hpre hagree
  have dom := fun c => Cert.CentreLoss.domain_of_pre _ _ _ (hpre c)
  refine ⟨fun c => directLogits (m ((c.tc : Thread Cert.KernelIdeal.nD Cert.KernelIdeal.τ).loc Cert.KernelIdeal.main_arg0))
      (m ((c.tc : Thread Cert.KernelIdeal.nD Cert.KernelIdeal.τ).loc Cert.KernelIdeal.main_arg2)),
    fun c => directMargin (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => directLikelihood (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun _ h c => ?_) (Cert.KernelIdeal.Whole.run m ρ)
    obtain ⟨hf, hc, hl⟩ := dom c
    obtain ⟨h1, h2, h3, h4, h5, h6⟩ := h c
    exact ⟨h1.trans (expandedLogits_eq _ _ hf hc), h2.trans (expandedMargin_eq _ _ _ hf hc),
      h3.trans (expandedLikelihood_eq _ _ _ hl (sqDistExpanded_eq _ _ hf hc)), h4, h5, h6⟩
  · refine (θ_run Cert.ReferenceIdeal.defs _ _).mono (fun _ h c => ?_) (Cert.ReferenceIdeal.Value.run (F := Ideal) m' ρ')
    obtain ⟨-, -, hl⟩ := dom c
    obtain ⟨h1, h2, h3, h4, h5, h6⟩ := h c
    obtain ⟨a0, a1, a2⟩ := hagree c
    refine ⟨?_, ?_, ?_, h4, h5, h6⟩
    · rw [h1, Cert.ReferenceIdeal.Read.val_main_v16_eq, Cert.ReferenceIdeal.RefValue.logits_eq, a0, a2]
    · rw [h2, Cert.ReferenceIdeal.Read.val_main_v14_eq, Cert.ReferenceIdeal.RefValue.margin_eq, a0, a1, a2]
    · rw [h3, Cert.ReferenceIdeal.Read.val_main_v28_eq, Cert.ReferenceIdeal.RefValue.likelihood_eq _ _ _ (by rw [a1]; exact hl), a0, a1, a2]

theorem claim : Cert.Claim := ⟨Cert.Kernel.Gen.facts, Cert.KernelIdeal.Gen.facts, Cert.ReferenceIdeal.Gen.facts, Cert.Pre_finite_inputs.Gen.facts,
  frame_words, frame_expanded, frame_direct, trivial, same_results⟩

end Cert.Proof

end
